-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x128 : Shape := ⟨3, ![32, 256, 128]⟩
abbrev S32x256x48 : Shape := ⟨3, ![32, 256, 48]⟩
abbrev S32x256x48x50 : Shape := ⟨4, ![32, 256, 48, 50]⟩
abbrev S50x128 : Shape := ⟨2, ![50, 128]⟩
abbrev S128 : Shape := ⟨1, ![128]⟩
abbrev S128x128 : Shape := ⟨2, ![128, 128]⟩
abbrev S_ : Shape := ⟨0, ![]⟩

class Facts : Prop where
  bcast_S_S32x256x128 : S_.BroadcastsInDim S32x256x128 (![] : Fin 0 → Fin S32x256x128.rank)
  reducesTo_S32x256x128_S_d0_1_2 : S32x256x128.ReducesTo [0, 1, 2] S_
  h_S_ : 0 < S_.numel
  bcast_S_S32x256x48 : S_.BroadcastsInDim S32x256x48 (![] : Fin 0 → Fin S32x256x48.rank)
  reducesTo_S32x256x48_S_d0_1_2 : S32x256x48.ReducesTo [0, 1, 2] S_
  bcast_S_S32x256x48x50 : S_.BroadcastsInDim S32x256x48x50 (![] : Fin 0 → Fin S32x256x48x50.rank)
  reducesTo_S32x256x48x50_S_d0_1_2_3 : S32x256x48x50.ReducesTo [0, 1, 2, 3] S_
  bcast_S_S50x128 : S_.BroadcastsInDim S50x128 (![] : Fin 0 → Fin S50x128.rank)
  reducesTo_S50x128_S_d0_1 : S50x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_arg2 : IVec S32x256x48 32) (main_arg12 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_c_22 : IVec S_ 32 := constantI S_ 32 0#32
  let main_v59 : IVec S32x256x48 32 := broadcastInDim S32x256x48 ![] bcast_S_S32x256x48 main_c_22
  let main_v60 : IVec S32x256x48 1 := cmpi .sge main_arg2 main_v59
  let main_c_23 : IVec S_ 32 := constantI S_ 32 256#32
  let main_v61 : IVec S32x256x48 32 := broadcastInDim S32x256x48 ![] bcast_S_S32x256x48 main_c_23
  let main_v62 : IVec S32x256x48 1 := cmpi .slt main_arg2 main_v61
  let main_v63 : IVec S32x256x48 1 := andi main_v60 main_v62
  let main_c_24 : IVec S_ 1 := constantI S_ 1 1#1
  let main_v64 : IVec S_ 1 := (fun x v => Host.reduce IntOp.andi x v reducesTo_S32x256x48_S_d0_1_2 h_S_) main_v63 main_c_24
  let main_v65 : IVec S_ 1 := andi main_v58 main_v64
  main_v65

def fn_part2 {F : FTy → Type} [FloatOps F] (main_arg2 : IVec S32x256x48 32) (main_arg8 : FVec F S128x128 .f32) (main_arg9 : FVec F S128x128 .f32) (main_arg10 : FVec F S128 .f32) (main_arg11 : FVec F S128x128 .f32) (main_arg12 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg2 main_arg12 main_v48 main_v49 main_v50

def fn_part1 {F : FTy → Type} [FloatOps F] (main_arg2 : IVec S32x256x48 32) (main_arg5 : FVec F S128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128 .f32) (main_v13 : IVec S_ 1) (main_v16 : IVec S50x128 1) : IVec S_ 1 :=
  let main_c_5 : IVec S_ 1 := constantI S_ 1 1#1
  let main_v17 : IVec S_ 1 := (fun x v => Host.reduce IntOp.andi x v reducesTo_S50x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg2 main_arg8 main_arg9 main_arg10 main_arg11 main_arg12 main_v33

def fn {F : FTy → Type} [FloatOps F] (main_arg0 : FVec F S32x256x128 .f32) (main_arg1 : FVec F S32x256x48 .f32) (main_arg2 : IVec S32x256x48 32) (main_arg3 : FVec F S32x256x48x50 .f32) (main_arg4 : FVec F S50x128 .f32) (main_arg5 : FVec F S128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128 .f32) : IVec S_ 1 :=
  let main_v0 : FVec F S32x256x128 .f32 := Host.absf main_arg0
  let main_cst : FVec F S_ .f32 := constant S_ .f32 0x7F800000#32
  let main_v1 : FVec F S32x256x128 .f32 := broadcastInDim S32x256x128 ![] bcast_S_S32x256x128 main_cst
  let main_v2 : IVec S32x256x128 1 := cmpf .olt main_v0 main_v1
  let main_c : IVec S_ 1 := constantI S_ 1 1#1
  let main_v3 : IVec S_ 1 := (fun x v => Host.reduce IntOp.andi x v reducesTo_S32x256x128_S_d0_1_2 h_S_) main_v2 main_c
  let main_v4 : FVec F S32x256x48 .f32 := Host.absf main_arg1
  let main_cst_0 : FVec F S_ .f32 := constant S_ .f32 0x7F800000#32
  let main_v5 : FVec F S32x256x48 .f32 := broadcastInDim S32x256x48 ![] bcast_S_S32x256x48 main_cst_0
  let main_v6 : IVec S32x256x48 1 := cmpf .olt main_v4 main_v5
  let main_c_1 : IVec S_ 1 := constantI S_ 1 1#1
  let main_v7 : IVec S_ 1 := (fun x v => Host.reduce IntOp.andi x v reducesTo_S32x256x48_S_d0_1_2 h_S_) main_v6 main_c_1
  let main_v8 : IVec S_ 1 := andi main_v3 main_v7
  let main_v9 : FVec F S32x256x48x50 .f32 := Host.absf main_arg3
  let main_cst_2 : FVec F S_ .f32 := constant S_ .f32 0x7F800000#32
  let main_v10 : FVec F S32x256x48x50 .f32 := broadcastInDim S32x256x48x50 ![] bcast_S_S32x256x48x50 main_cst_2
  let main_v11 : IVec S32x256x48x50 1 := cmpf .olt main_v9 main_v10
  let main_c_3 : IVec S_ 1 := constantI S_ 1 1#1
  let main_v12 : IVec S_ 1 := (fun x v => Host.reduce IntOp.andi x v reducesTo_S32x256x48x50_S_d0_1_2_3 h_S_) main_v11 main_c_3
  let main_v13 : IVec S_ 1 := andi main_v8 main_v12
  let main_v14 : FVec F S50x128 .f32 := Host.absf main_arg4
  let main_cst_4 : FVec F S_ .f32 := constant S_ .f32 0x7F800000#32
  let main_v15 : FVec F S50x128 .f32 := broadcastInDim S50x128 ![] bcast_S_S50x128 main_cst_4
  let main_v16 : IVec S50x128 1 := cmpf .olt main_v14 main_v15
  fn_part1 (F := F) main_arg2 main_arg5 main_arg6 main_arg7 main_arg8 main_arg9 main_arg10 main_arg11 main_arg12 main_v13 main_v16
-- ==== Kernel.lean ====
abbrev S32x256x128 : Shape := ⟨3, ![32, 256, 128]⟩
abbrev S32x256x48 : Shape := ⟨3, ![32, 256, 48]⟩
abbrev S32x256x48x50 : Shape := ⟨4, ![32, 256, 48, 50]⟩
abbrev S50x128 : Shape := ⟨2, ![50, 128]⟩
abbrev S128 : Shape := ⟨1, ![128]⟩
abbrev S128x128 : Shape := ⟨2, ![128, 128]⟩
abbrev S1x256x128 : Shape := ⟨3, ![1, 256, 128]⟩
abbrev S1x256x48x50 : Shape := ⟨4, ![1, 256, 48, 50]⟩
abbrev S1x256x48 : Shape := ⟨3, ![1, 256, 48]⟩
abbrev S256x128 : Shape := ⟨2, ![256, 128]⟩
abbrev S1536x256 : Shape := ⟨2, ![1536, 256]⟩
abbrev S1x32x48x50 : Shape := ⟨4, ![1, 32, 48, 50]⟩
abbrev S32x48x50 : Shape := ⟨3, ![32, 48, 50]⟩
abbrev S1536x50 : Shape := ⟨2, ![1536, 50]⟩
abbrev S1536x128 : Shape := ⟨2, ![1536, 128]⟩
abbrev S1x128 : Shape := ⟨2, ![1, 128]⟩
abbrev S1x32x48 : Shape := ⟨3, ![1, 32, 48]⟩
abbrev S32x48 : Shape := ⟨2, ![32, 48]⟩
abbrev S1536x1 : Shape := ⟨2, ![1536, 1]⟩
abbrev S32x48x128 : Shape := ⟨3, ![32, 48, 128]⟩
abbrev S32x128 : Shape := ⟨2, ![32, 128]⟩

abbrev nBuf : Space → Nat
  | .hbm => 14
  | .vmem => 20
  | .smem => 0
  | _ => 0

abbrev bufTy : (tb : Table) → Fin (tcTables nBuf tb) → BufTy
  | .hbm, ⟨0, _⟩ => ⟨S32x256x128, .f32⟩
  | .hbm, ⟨1, _⟩ => ⟨S32x256x48, .f32⟩
  | .hbm, ⟨2, _⟩ => ⟨S32x256x48, .i32⟩
  | .hbm, ⟨3, _⟩ => ⟨S32x256x48x50, .f32⟩
  | .hbm, ⟨4, _⟩ => ⟨S50x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S32x256x128, .f32⟩
  | .local _ .vmem, ⟨0, _⟩ => ⟨S1x256x128, .f32⟩
  | .local _ .vmem, ⟨1, _⟩ => ⟨S1x256x128, .f32⟩
  | .local _ .vmem, ⟨2, _⟩ => ⟨S1x256x48x50, .f32⟩
  | .local _ .vmem, ⟨3, _⟩ => ⟨S1x256x48x50, .f32⟩
  | .local _ .vmem, ⟨4, _⟩ => ⟨S1x256x48, .f32⟩
  | .local _ .vmem, ⟨5, _⟩ => ⟨S1x256x48, .f32⟩
  | .local _ .vmem, ⟨6, _⟩ => ⟨S1x256x48, .i32⟩
  | .local _ .vmem, ⟨7, _⟩ => ⟨S1x256x48, .i32⟩
  | .local _ .vmem, ⟨8, _⟩ => ⟨S50x128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S128x128, .f32⟩
  | .local _ .vmem, ⟨13, _⟩ => ⟨S128x128, .f32⟩
  | .local _ .vmem, ⟨14, _⟩ => ⟨S128, .f32⟩
  | .local _ .vmem, ⟨15, _⟩ => ⟨S128x128, .f32⟩
  | .local _ .vmem, ⟨16, _⟩ => ⟨S128, .f32⟩
  | .local _ .vmem, ⟨17, _⟩ => ⟨S1x256x128, .f32⟩
  | .local _ .vmem, ⟨18, _⟩ => ⟨S1x256x128, .f32⟩
  | .local _ .vmem, ⟨19, _⟩ => ⟨S256x128, .f32⟩
  | _, _ => ⟨S32x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c8_i32 : BitVec 32 := 8#32
  let v14 : BitVec 32 := Scalar.addi c0_i32 c8_i32
  let c1_i32 : BitVec 32 := 1#32
  ⟨c0_i32, v14, c1_i32⟩
def k0_mult1 (k0_t1 : Fin k0_t1_loop.trips) : BitVec 32 :=
  let c0_i32_28 : BitVec 32 := 0#32
  let c0_i32 : BitVec 32 := 0#32
  let c1_i32 : BitVec 32 := 1#32
  let arg16 : BitVec 32 := Scf.iv c0_i32 c1_i32 k0_t1
  let c1_i32_27 : BitVec 32 := 1#32
  let v51 : BitVec 32 := Scalar.muli arg16 c1_i32_27
  let v52 : BitVec 32 := Scalar.addi c0_i32_28 v51
  let c32_i32 : BitVec 32 := 32#32
  let v53 : BitVec 32 := Scalar.muli v52 c32_i32
  v53
def k0_off1 (k0_t1 : Fin k0_t1_loop.trips) : Fin 4 → Nat :=
  let c0_29 : Index := 0#32
  let c0_i32_28 : BitVec 32 := 0#32
  let c0_i32 : BitVec 32 := 0#32
  let c1_i32 : BitVec 32 := 1#32
  let arg16 : BitVec 32 := Scf.iv c0_i32 c1_i32 k0_t1
  let c1_i32_27 : BitVec 32 := 1#32
  let v51 : BitVec 32 := Scalar.muli arg16 c1_i32_27
  let v52 : BitVec 32 := Scalar.addi c0_i32_28 v51
  let c32_i32 : BitVec 32 := 32#32
  let v53 : BitVec 32 := Scalar.muli v52 c32_i32
  let v54 : BitVec 32 := v53
  let v55 : Index := Scalar.indexCast v54
  let c0_30 : Index := 0#32
  let c0_31 : Index := 0#32
  ![0, v55.toNat, 0, 0]
def k0_off2 (k0_t1 : Fin k0_t1_loop.trips) : Fin 3 → Nat :=
  let c0_37 : Index := 0#32
  let c0_i32_28 : BitVec 32 := 0#32
  let c0_i32 : BitVec 32 := 0#32
  let c1_i32 : BitVec 32 := 1#32
  let arg16 : BitVec 32 := Scf.iv c0_i32 c1_i32 k0_t1
  let c1_i32_27 : BitVec 32 := 1#32
  let v51 : BitVec 32 := Scalar.muli arg16 c1_i32_27
  let v52 : BitVec 32 := Scalar.addi c0_i32_28 v51
  let c32_i32 : BitVec 32 := 32#32
  let v53 : BitVec 32 := Scalar.muli v52 c32_i32
  let v54 : BitVec 32 := v53
  let v85 : Index := Scalar.indexCast v54
  let c0_38 : Index := 0#32
  ![0, v85.toNat, 0]
def k0_off3 (k0_t1 : Fin k0_t1_loop.trips) : Fin 2 → Nat :=
  let c0_i32_28 : BitVec 32 := 0#32
  let c0_i32 : BitVec 32 := 0#32
  let c1_i32 : BitVec 32 := 1#32
  let arg16 : BitVec 32 := Scf.iv c0_i32 c1_i32 k0_t1
  let c1_i32_27 : BitVec 32 := 1#32
  let v51 : BitVec 32 := Scalar.muli arg16 c1_i32_27
  let v52 : BitVec 32 := Scalar.addi c0_i32_28 v51
  let c32_i32 : BitVec 32 := 32#32
  let v53 : BitVec 32 := Scalar.muli v52 c32_i32
  let v54 : BitVec 32 := v53
  let v104 : Index := Scalar.indexCast v54
  let c0_43 : Index := 0#32
  ![v104.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x48x50 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x48 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x48 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S50x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S50x128_S50x128_0_0 : ∀ a, (![0, 0] : Fin 2 → Nat) a + S50x128.size a ≤ S50x128.size a
  h_S50x128 : 0 < S50x128.numel
  inb_S128_S128_0 : ∀ a, (![0] : Fin 1 → Nat) a + S128.size a ≤ S128.size a
  h_S128 : 0 < S128.numel
  iota_S1536x256_d1_w32 : S1536x256.Iotas .tc 32 [1]
  h_S1x32x48x50 : 0 < S1x32x48x50.numel
  shapeCasts_S1x32x48x50_S32x48x50 : S1x32x48x50.ShapeCasts S32x48x50
  shapeCasts_S32x48x50_S1536x50 : S32x48x50.ShapeCasts S1536x50
  shapeCasts_S128_S1x128 : S128.ShapeCasts S1x128
  broadcasts_S1x128_S1536x128 : S1x128.Broadcasts S1536x128
  h_S1x32x48 : 0 < S1x32x48.numel
  shapeCasts_S1x32x48_S32x48 : S1x32x48.ShapeCasts S32x48
  shapeCasts_S32x48_S1536x1 : S32x48.ShapeCasts S1536x1
  broadcasts_S1536x1_S1536x128 : S1536x1.Broadcasts S1536x128
  broadcasts_S1536x1_S1536x256 : S1536x1.Broadcasts S1536x256
  natLt_1_32 : 1 < 32
  shapeCasts_S1536x128_S32x48x128 : S1536x128.ShapeCasts S32x48x128
  reduces_S32x48x128_S32x128 : S32x48x128.Reduces [1] S32x128
  h_S32x128 : 0 < S32x128.numel
  shapeCasts_S32x128_S32x128 : S32x128.ShapeCasts S32x128
  inb_S256x128_S256x128_0_0 : ∀ a, (![0, 0] : Fin 2 → Nat) a + S256x128.size a ≤ S256x128.size a
  h_S256x128 : 0 < S256x128.numel
  broadcasts_S1x128_S256x128 : S1x128.Broadcasts S256x128
  shapeCasts_S256x128_S1x256x128 : S256x128.ShapeCasts S1x256x128
  dot_S256x128_S128x128_S256x128_1_0_0_1_n_n_wf : DotDims.WF S256x128 S128x128 S256x128 [1] [0] [0] [1] [] []
  dot_S1536x50_S50x128_S1536x128_1_0_0_1_n_n_wf : DotDims.WF S1536x50 S50x128 S1536x128 [1] [0] [0] [1] [] []
  dot_S1536x128_S128x128_S1536x128_1_0_0_1_n_n_wf : DotDims.WF S1536x128 S128x128 S1536x128 [1] [0] [0] [1] [] []
  dot_S1536x256_S256x128_S1536x128_1_0_0_1_n_n_wf : DotDims.WF S1536x256 S256x128 S1536x128 [1] [0] [0] [1] [] []
  hrank0 : 0 < grid0.rank
  k0_t1_ok : k0_t1_loop.OK
  k0_mult1_dvd : ∀ k0_t1 : Fin k0_t1_loop.trips, 32 ∣ (k0_mult1 k0_t1).toNat
  k0_off1_inb : ∀ k0_t1 : Fin k0_t1_loop.trips, ∀ a, (k0_off1 k0_t1) a + S1x32x48x50.size a ≤ S1x256x48x50.size a
  k0_off2_inb : ∀ k0_t1 : Fin k0_t1_loop.trips, ∀ a, (k0_off2 k0_t1) a + S1x32x48.size a ≤ S1x256x48.size a
  k0_off3_inb : ∀ k0_t1 : Fin k0_t1_loop.trips, ∀ a, (k0_off3 k0_t1) a + S32x128.size a ≤ S256x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x128.size a ≤ S32x256x128.size a
  hwx0_0 : ∀ i : grid0.Coords, EltTy.bits .f32 = 32 ∨ (Rect.block (s := S32x256x128) S1x256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x48x50.size a ≤ S32x256x48x50.size a
  hwx0_1 : ∀ i : grid0.Coords, EltTy.bits .f32 = 32 ∨ (Rect.block (s := S32x256x48x50) S1x256x48x50.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x48.size a ≤ S32x256x48.size a
  hwx0_2 : ∀ i : grid0.Coords, EltTy.bits .f32 = 32 ∨ (Rect.block (s := S32x256x48) S1x256x48.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x48.size a ≤ S32x256x48.size a
  hwx0_3 : ∀ i : grid0.Coords, EltTy.bits .i32 = 32 ∨ (Rect.block (s := S32x256x48) S1x256x48.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S50x128.size a ≤ S50x128.size a
  hwx0_4 : ∀ i : grid0.Coords, EltTy.bits .f32 = 32 ∨ (Rect.block (s := S50x128) S50x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .f32 = 32 ∨ (Rect.block (s := S128x128) S128x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128.size a ≤ S128.size a
  hwx0_12 : ∀ i : grid0.Coords, EltTy.bits .f32 = 32 ∨ (Rect.block (s := S128) S128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x256x128.size a ≤ S32x256x128.size a
  hwx0_13 : ∀ i : grid0.Coords, EltTy.bits .f32 = 32 ∨ (Rect.block (s := S32x256x128) S1x256x128.size (cc0_transform_13 i) (hinb0_13 i)).WholeWords (EltTy.packing .f32)

variable [Facts₀]

def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S1536x50_S50x128_S1536x128_1_0_0_1_n_n : DotDims S1536x50 S50x128 S1536x128 where
  lhsContracting := [1]
  rhsContracting := [0]
  lhsNonContracting := [0]
  rhsNonContracting := [1]
  lhsBatch := []
  rhsBatch := []
  wf := dot_S1536x50_S50x128_S1536x128_1_0_0_1_n_n_wf
def dot_S1536x128_S128x128_S1536x128_1_0_0_1_n_n : DotDims S1536x128 S128x128 S1536x128 where
  lhsContracting := [1]
  rhsContracting := [0]
  lhsNonContracting := [0]
  rhsNonContracting := [1]
  lhsBatch := []
  rhsBatch := []
  wf := dot_S1536x128_S128x128_S1536x128_1_0_0_1_n_n_wf
def dot_S1536x256_S256x128_S1536x128_1_0_0_1_n_n : DotDims S1536x256 S256x128 S1536x128 where
  lhsContracting := [1]
  rhsContracting := [0]
  lhsNonContracting := [0]
  rhsNonContracting := [1]
  lhsBatch := []
  rhsBatch := []
  wf := dot_S1536x256_S256x128_S1536x128_1_0_0_1_n_n_wf

abbrev win0_0 : Pipeline.Window sig grid0 :=
  Pipeline.Window.ofSpec (Memref.whole main_arg0) S1x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x256x48x50.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x256x48.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x256x48.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S50x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v0) S1x256x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S32x256x128 : Shape := ⟨3, ![32, 256, 128]⟩
abbrev S32x256x48 : Shape := ⟨3, ![32, 256, 48]⟩
abbrev S32x256x48x50 : Shape := ⟨4, ![32, 256, 48, 50]⟩
abbrev S50x128 : Shape := ⟨2, ![50, 128]⟩
abbrev S128 : Shape := ⟨1, ![128]⟩
abbrev S128x128 : Shape := ⟨2, ![128, 128]⟩
abbrev S32x256x48x128 : Shape := ⟨4, ![32, 256, 48, 128]⟩
abbrev S1x1x1x128 : Shape := ⟨4, ![1, 1, 1, 128]⟩
abbrev S_ : Shape := ⟨0, ![]⟩
abbrev S32x256x48x1 : Shape := ⟨4, ![32, 256, 48, 1]⟩
abbrev S32 : Shape := ⟨1, ![32]⟩
abbrev S32x1x1 : Shape := ⟨3, ![32, 1, 1]⟩
abbrev S32x256x48x2 : Shape := ⟨4, ![32, 256, 48, 2]⟩
abbrev S1x1x128 : Shape := ⟨3, ![1, 1, 128]⟩

abbrev nBuf : Space → Nat
  | .hbm => 91
  | .vmem => 0
  | .smem => 0
  | _ => 0

abbrev bufTy : (tb : Table) → Fin (tcTables nBuf tb) → BufTy
  | .hbm, ⟨0, _⟩ => ⟨S32x256x128, .f32⟩
  | .hbm, ⟨1, _⟩ => ⟨S32x256x48, .f32⟩
  | .hbm, ⟨2, _⟩ => ⟨S32x256x48, .i32⟩
  | .hbm, ⟨3, _⟩ => ⟨S32x256x48x50, .f32⟩
  | .hbm, ⟨4, _⟩ => ⟨S50x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S32x256x48x128, .f32⟩
  | .hbm, ⟨14, _⟩ => ⟨S1x1x1x128, .f32⟩
  | .hbm, ⟨15, _⟩ => ⟨S32x256x48x128, .f32⟩
  | .hbm, ⟨16, _⟩ => ⟨S32x256x48x128, .f32⟩
  | .hbm, ⟨17, _⟩ => ⟨S_, .f32⟩
  | .hbm, ⟨18, _⟩ => ⟨S32x256x48x128, .f32⟩
  | .hbm, ⟨19, _⟩ => ⟨S32x256x48x128, .f32⟩
  | .hbm, ⟨20, _⟩ => ⟨S32x256x48x128, .f32⟩
  | .hbm, ⟨21, _⟩ => ⟨S32x256x48x128, .f32⟩
  | .hbm, ⟨22, _⟩ => ⟨S32x256x48x128, .i1⟩
  | .hbm, ⟨23, _⟩ => ⟨S32x256x48x128, .f32⟩
  | .hbm, ⟨24, _⟩ => ⟨S32x256x48x128, .f32⟩
  | .hbm, ⟨25, _⟩ => ⟨S32x256x48x128, .f32⟩
  | .hbm, ⟨26, _⟩ => ⟨S32x256x48x128, .f32⟩
  | .hbm, ⟨27, _⟩ => ⟨S32x256x48x128, .f32⟩
  | .hbm, ⟨28, _⟩ => ⟨S32x256x48x128, .f32⟩
  | .hbm, ⟨29, _⟩ => ⟨S32x256x48x128, .f32⟩
  | .hbm, ⟨30, _⟩ => ⟨S32x256x48x128, .f32⟩
  | .hbm, ⟨31, _⟩ => ⟨S_, .f32⟩
  | .hbm, ⟨32, _⟩ => ⟨S32x256x48x128, .f32⟩
  | .hbm, ⟨33, _⟩ => ⟨S32x256x48x128, .f32⟩
  | .hbm, ⟨34, _⟩ => ⟨S32x256x48x128, .f32⟩
  | .hbm, ⟨35, _⟩ => ⟨S1x1x1x128, .f32⟩
  | .hbm, ⟨36, _⟩ => ⟨S32x256x48x128, .f32⟩
  | .hbm, ⟨37, _⟩ => ⟨S32x256x48x128, .f32⟩
  | .hbm, ⟨38, _⟩ => ⟨S32x256x48x1, .f32⟩
  | .hbm, ⟨39, _⟩ => ⟨S32x256x48x128, .f32⟩
  | .hbm, ⟨40, _⟩ => ⟨S32x256x48x128, .f32⟩
  | .hbm, ⟨41, _⟩ => ⟨S32x256x128, .f32⟩
  | .hbm, ⟨42, _⟩ => ⟨S32, .i32⟩
  | .hbm, ⟨43, _⟩ => ⟨S32x1x1, .i32⟩
  | .hbm, ⟨44, _⟩ => ⟨S_, .i32⟩
  | .hbm, ⟨45, _⟩ => ⟨S32x1x1, .i32⟩
  | .hbm, ⟨46, _⟩ => ⟨S32x1x1, .i1⟩
  | .hbm, ⟨47, _⟩ => ⟨S_, .i32⟩
  | .hbm, ⟨48, _⟩ => ⟨S32x1x1, .i32⟩
  | .hbm, ⟨49, _⟩ => ⟨S32x1x1, .i32⟩
  | .hbm, ⟨50, _⟩ => ⟨S32x1x1, .i32⟩
  | .hbm, ⟨51, _⟩ => ⟨S_, .i32⟩
  | .hbm, ⟨52, _⟩ => ⟨S32x256x48, .i32⟩
  | .hbm, ⟨53, _⟩ => ⟨S32x256x48, .i1⟩
  | .hbm, ⟨54, _⟩ => ⟨S_, .i32⟩
  | .hbm, ⟨55, _⟩ => ⟨S32x256x48, .i32⟩
  | .hbm, ⟨56, _⟩ => ⟨S32x256x48, .i32⟩
  | .hbm, ⟨57, _⟩ => ⟨S32x256x48, .i32⟩
  | .hbm, ⟨58, _⟩ => ⟨S32x256x48, .i32⟩
  | .hbm, ⟨59, _⟩ => ⟨S32x256x48x1, .i32⟩
  | .hbm, ⟨60, _⟩ => ⟨S32x256x48x1, .i32⟩
  | .hbm, ⟨61, _⟩ => ⟨S32x256x48x2, .i32⟩
  | .hbm, ⟨62, _⟩ => ⟨S32x256x48x128, .f32⟩
  | .hbm, ⟨63, _⟩ => ⟨S32x256x48x128, .f32⟩
  | .hbm, ⟨64, _⟩ => ⟨S_, .f32⟩
  | .hbm, ⟨65, _⟩ => ⟨S32x256x128, .f32⟩
  | .hbm, ⟨66, _⟩ => ⟨S32x256x128, .f32⟩
  | .hbm, ⟨67, _⟩ => ⟨S1x1x128, .f32⟩
  | .hbm, ⟨68, _⟩ => ⟨S32x256x128, .f32⟩
  | .hbm, ⟨69, _⟩ => ⟨S32x256x128, .f32⟩
  | .hbm, ⟨70, _⟩ => ⟨S_, .f32⟩
  | .hbm, ⟨71, _⟩ => ⟨S32x256x128, .f32⟩
  | .hbm, ⟨72, _⟩ => ⟨S32x256x128, .f32⟩
  | .hbm, ⟨73, _⟩ => ⟨S32x256x128, .f32⟩
  | .hbm, ⟨74, _⟩ => ⟨S32x256x128, .f32⟩
  | .hbm, ⟨75, _⟩ => ⟨S32x256x128, .i1⟩
  | .hbm, ⟨76, _⟩ => ⟨S32x256x128, .f32⟩
  | .hbm, ⟨77, _⟩ => ⟨S32x256x128, .f32⟩
  | .hbm, ⟨78, _⟩ => ⟨S32x256x128, .f32⟩
  | .hbm, ⟨79, _⟩ => ⟨S32x256x128, .f32⟩
  | .hbm, ⟨80, _⟩ => ⟨S32x256x128, .f32⟩
  | .hbm, ⟨81, _⟩ => ⟨S32x256x128, .f32⟩
  | .hbm, ⟨82, _⟩ => ⟨S32x256x128, .f32⟩
  | .hbm, ⟨83, _⟩ => ⟨S32x256x128, .f32⟩
  | .hbm, ⟨84, _⟩ => ⟨S_, .f32⟩
  | .hbm, ⟨85, _⟩ => ⟨S32x256x128, .f32⟩
  | .hbm, ⟨86, _⟩ => ⟨S32x256x128, .f32⟩
  | .hbm, ⟨87, _⟩ => ⟨S32x256x128, .f32⟩
  | .hbm, ⟨88, _⟩ => ⟨S1x1x128, .f32⟩
  | .hbm, ⟨89, _⟩ => ⟨S32x256x128, .f32⟩
  | .hbm, ⟨90, _⟩ => ⟨S32x256x128, .f32⟩
  | _, _ => ⟨S32x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_v4 : Ref sig .tc := ⟨.hbm, 30, rfl⟩
abbrev main_cst : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_c : Ref sig .tc := ⟨.hbm, 44, rfl⟩
abbrev main_v17 : Ref sig .tc := ⟨.hbm, 45, rfl⟩
abbrev main_v18 : Ref sig .tc := ⟨.hbm, 46, rfl⟩
abbrev main_c_0 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_c_1 : Ref sig .tc := ⟨.hbm, 51, rfl⟩
abbrev main_v22 : Ref sig .tc := ⟨.hbm, 52, rfl⟩
abbrev main_v23 : Ref sig .tc := ⟨.hbm, 53, rfl⟩
abbrev main_c_2 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_cst_3 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_call1_cst : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_call1_v5 : Ref sig .tc := ⟨.hbm, 76, rfl⟩
abbrev main_call1_v6 : Ref sig .tc := ⟨.hbm, 77, rfl⟩
abbrev main_call1_v7 : Ref sig .tc := ⟨.hbm, 78, rfl⟩
abbrev main_call1_v8 : Ref sig .tc := ⟨.hbm, 79, rfl⟩
abbrev main_call1_v9 : Ref sig .tc := ⟨.hbm, 80, rfl⟩
abbrev main_call1_v10 : Ref sig .tc := ⟨.hbm, 81, rfl⟩
abbrev main_call1_v11 : Ref sig .tc := ⟨.hbm, 82, rfl⟩
abbrev main_v38 : Ref sig .tc := ⟨.hbm, 83, rfl⟩
abbrev main_cst_4 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩

abbrev nD : Nat := 1
abbrev τ : Topo := Topo.v7x

variable {F : FTy → Type} [FloatOps F]

class Facts₀ : Prop where
  bcast_S128_S1x1x1x128_3 : S128.BroadcastsInDim S1x1x1x128 (![3] : Fin 1 → Fin S1x1x1x128.rank)
  bcast_S1x1x1x128_S32x256x48x128_0_1_2_3 : S1x1x1x128.BroadcastsInDim S32x256x48x128 (![0, 1, 2, 3] : Fin 4 → Fin S32x256x48x128.rank)
  bcast_S_S32x256x48x128 : S_.BroadcastsInDim S32x256x48x128 (![] : Fin 0 → Fin S32x256x48x128.rank)
  bcast_S32x256x48_S32x256x48x1_0_1_2 : S32x256x48.BroadcastsInDim S32x256x48x1 (![0, 1, 2] : Fin 3 → Fin S32x256x48x1.rank)
  bcast_S32x256x48x1_S32x256x48x128_0_1_2_3 : S32x256x48x1.BroadcastsInDim S32x256x48x128 (![0, 1, 2, 3] : Fin 4 → Fin S32x256x48x128.rank)
  bcast_S32_S32x1x1_0 : S32.BroadcastsInDim S32x1x1 (![0] : Fin 1 → Fin S32x1x1.rank)
  bcast_S_S32x1x1 : S_.BroadcastsInDim S32x1x1 (![] : Fin 0 → Fin S32x1x1.rank)
  bcast_S_S32x256x48 : S_.BroadcastsInDim S32x256x48 (![] : Fin 0 → Fin S32x256x48.rank)
  bcast_S32x1x1_S32x256x48_0_1_2 : S32x1x1.BroadcastsInDim S32x256x48 (![0, 1, 2] : Fin 3 → Fin S32x256x48.rank)
  concatenates_S32x256x48x1_S32x256x48x1_S32x256x48x2_d3 : Shape.Concatenates [S32x256x48x1, S32x256x48x1] S32x256x48x2 3
  reducesTo_S32x256x48x128_S32x256x128_d2 : S32x256x48x128.ReducesTo [2] S32x256x128
  h_S_ : 0 < S_.numel
  bcast_S128_S1x1x128_2 : S128.BroadcastsInDim S1x1x128 (![2] : Fin 1 → Fin S1x1x128.rank)
  bcast_S1x1x128_S32x256x128_0_1_2 : S1x1x128.BroadcastsInDim S32x256x128 (![0, 1, 2] : Fin 3 → Fin S32x256x128.rank)
  bcast_S_S32x256x128 : S_.BroadcastsInDim S32x256x128 (![] : Fin 0 → Fin S32x256x128.rank)
  dot_S32x256x48x50_S50x128_S32x256x48x128_3_0_012_1_n_n_wf : DotDims.WF S32x256x48x50 S50x128 S32x256x48x128 [3] [0] [0, 1, 2] [1] [] []
  dot_S32x256x48x128_S128x128_S32x256x48x128_3_0_012_1_n_n_wf : DotDims.WF S32x256x48x128 S128x128 S32x256x48x128 [3] [0] [0, 1, 2] [1] [] []
  dot_S32x256x128_S128x128_S32x256x128_2_0_01_1_n_n_wf : DotDims.WF S32x256x128 S128x128 S32x256x128 [2] [0] [0, 1] [1] [] []
  gather_S32x256x128_S32x256x48x2_S32x256x48x128_3_01_n_n_01_3_11128_wf : GatherDims.WF S32x256x128 S32x256x48x2 S32x256x48x128 [3] [0, 1] [] [0, 1] [] 3 ![1, 1, 128]

variable [Facts₀]

def dot_S32x256x48x50_S50x128_S32x256x48x128_3_0_012_1_n_n : DotDims S32x256x48x50 S50x128 S32x256x48x128 where
  lhsContracting := [3]
  rhsContracting := [0]
  lhsNonContracting := [0, 1, 2]
  rhsNonContracting := [1]
  lhsBatch := []
  rhsBatch := []
  wf := dot_S32x256x48x50_S50x128_S32x256x48x128_3_0_012_1_n_n_wf
def dot_S32x256x48x128_S128x128_S32x256x48x128_3_0_012_1_n_n : DotDims S32x256x48x128 S128x128 S32x256x48x128 where
  lhsContracting := [3]
  rhsContracting := [0]
  lhsNonContracting := [0, 1, 2]
  rhsNonContracting := [1]
  lhsBatch := []
  rhsBatch := []
  wf := dot_S32x256x48x128_S128x128_S32x256x48x128_3_0_012_1_n_n_wf
def dot_S32x256x128_S128x128_S32x256x128_2_0_01_1_n_n : DotDims S32x256x128 S128x128 S32x256x128 where
  lhsContracting := [2]
  rhsContracting := [0]
  lhsNonContracting := [0, 1]
  rhsNonContracting := [1]
  lhsBatch := []
  rhsBatch := []
  wf := dot_S32x256x128_S128x128_S32x256x128_2_0_01_1_n_n_wf
def gather_S32x256x128_S32x256x48x2_S32x256x48x128_3_01_n_n_01_3_11128 : GatherDims S32x256x128 S32x256x48x2 S32x256x48x128 where
  offsetDims := [3]
  collapsedSliceDims := [0, 1]
  operandBatchingDims := []
  startIndicesBatchingDims := []
  startIndexMap := [0, 1]
  indexVectorDim := 3
  sliceSizes := ![1, 1, 128]
  wf := gather_S32x256x128_S32x256x48x2_S32x256x48x128_3_01_n_n_01_3_11128_wf

class Facts : Prop extends Facts₀ where

variable [Facts]
-- ==== Proof.KernelRows.lean ====
/-
  How a chunk's (atom, slot) pairs are laid out as rows: the loop takes the 256 atoms of a batch in eight chunks of 32, and
  within a chunk the 32 × 48 pairs are flattened row-major, so slot `s` of the chunk's atom `a` is row `48·a + s` of 1536.
-/
import Mathlib.Data.Fin.Basic

namespace Cert.FilterConv

/-- Row `48·a + s` of a chunk's 1536 rows: slot `s` of the chunk's atom `a`. -/
def slotRow (a : Fin 32) (s : Fin 48) : Fin 1536 := ⟨48 * a.val + s.val, by omega⟩

@[simp] theorem slotRow_val (a : Fin 32) (s : Fin 48) : (slotRow a s).val = 48 * a.val + s.val := rfl

end Cert.FilterConv
-- ==== Proof.KernelLoopBits.lean ====
/-
  The scratch aggregate after the loop over the eight chunks, read at one row.

  Trip `k` of the loop stores ONE block into the 256 × 128 scratch: rows `[32·k, 32·k + 32)`, all 128 columns, holding the
  chunk's aggregate computed from the loads at the same chunk of the radial basis values, the mask and the index words.
  The pieces of the first `j` trips are therefore `j` equal-sized tiles that the row axis keeps apart, and after all eight
  trips row `n` of the scratch reads the block of trip `n / 32` at its local row `n % 32`, whatever the scratch held before.
-/
import proofs.«417244_j30623116820559_3_alg».proof.Proof.Gen.Kernel.Loops
import proofs.«417244_j30623116820559_3_alg».proof.Proof.KernelRows
import Idealize.ShloMosaic.Lib.WritesUnit
import Idealize.ShloMosaic.Lib.Pipeline.Value
import Idealize.ShloMosaic.Lib.Pipeline.FrameBody
import Idealize.ShloMosaic.Lib.ValueIdx

set_option maxRecDepth 16384

noncomputable section

namespace Cert.FilterConv.Bits

open Idealize.ShloMosaic Idealize.ShloMosaic.ValueIdx Idealize.ShloMosaic.TcCoe Cert.Kernel Cert.Kernel.Gen

variable {F : FTy → Type} [FloatOps F]
variable (𝒱 : Variants) (c : Dev nD) (bd : Option 𝒱.V) (i : grid0.Coords) (arg1 : Memref sig .tc .vmem S1x256x128 .f32) (harg1 : arg1.IsWhole) (arg2 : Memref sig .tc .vmem S1x256x48x50 .f32) (harg2 : arg2.IsWhole) (arg3 : Memref sig .tc .vmem S1x256x48 .f32) (harg3 : arg3.IsWhole) (arg4 : Memref sig .tc .vmem S1x256x48 .i32) (harg4 : arg4.IsWhole) (arg5 : Memref sig .tc .vmem S50x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128x128 .f32) (harg12 : arg12.IsWhole) (arg13 : Memref sig .tc .vmem S128 .f32) (harg13 : arg13.IsWhole) (arg14 : Memref sig .tc .vmem S1x256x128 .f32) (harg14 : arg14.IsWhole) (arg15 : Memref sig .tc .vmem S256x128 .f32) (harg15 : arg15.IsWhole) (v0 : Vec F S1x256x128 .f32) (v3 : Vec F S128x128 .f32) (v7 : Vec F S50x128 .f32) (v9 : Vec F S128x128 .f32) (v11 : Vec F S128 .f32) (v12 : Vec F S128 .f32) (X_arg2 : BufTy.Contents (Elt F) arg2.view.ty) (X_arg3 : BufTy.Contents (Elt F) arg3.view.ty) (X_arg4 : BufTy.Contents (Elt F) arg4.view.ty)

/-- The block trip `k` stores: the chunk's aggregate, from the loads at chunk `k`. -/
def chunkStore (k : Fin k0_t1_loop.trips) : Vec F S32x128 .f32 :=
  k0_pay6 v0 v3
    (k0_pay2 (k0_pay4 v7) (k0_pay5 v9) v11 v12
      (View.readAt (Elt F) arg2.view (Rect.unit (s := S1x256x48x50) (k0_off1 k) S1x32x48x50.size (k0_off1_inb k)).toLoadRect X_arg2)
      (View.readAt (Elt F) arg3.view (Rect.unit (s := S1x256x48) (k0_off2 k) S1x32x48.size (k0_off2_inb k)).toLoadRect X_arg3))
    (k0_pay3 (View.readAt (Elt F) arg4.view (Rect.unit (s := S1x256x48) (k0_off2 k) S1x32x48.size (k0_off2_inb k)).toLoadRect X_arg4))

/-- Trip `k` leaves one piece: the store of its block at rows `[32·k, 32·k + 32)`. -/
theorem tripL_eq (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v3 v7 v9 v11 v12 X_arg2 X_arg3 X_arg4 k
      = [⟨Rect.unit (s := S256x128) (k0_off3 k) S32x128.size (k0_off3_inb k),
          chunkStore (F := F) arg2 arg3 arg4 v0 v3 v7 v9 v11 v12 X_arg2 X_arg3 X_arg4 k⟩] := by
  unfold tripL_k0_t1 trip_k0_t1 chunkStore
  rfl

/-- The loop makes eight trips. -/
theorem trips_eq : k0_t1_loop.trips = 8 := by decide

/-- The pieces of the first `j` trips are `j` tiles of 32 rows, trip `k`'s at rows `[32·k, 32·k + 32)`. -/
theorem pb_eq_tiles (j : ℕ) (hj : j ≤ k0_t1_loop.trips) :
    pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v3 v7 v9 v11 v12 X_arg2 X_arg3 X_arg4 j
      = View.tilePieces (s := S256x128) (Val := Elt F) (e := .f32) S32x128.size (fun k => k0_off3 k) (fun k => k0_off3_inb k)
          (fun k => chunkStore (F := F) arg2 arg3 arg4 v0 v3 v7 v9 v11 v12 X_arg2 X_arg3 X_arg4 k) j hj := by
  induction j with
  | zero => rfl
  | succ j ih =>
    refine (pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v3 v7 v9 v11 v12 X_arg2 X_arg3 X_arg4 ⟨j, Nat.lt_of_succ_le hj⟩).trans ?_
    show tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v3 v7 v9 v11 v12 X_arg2 X_arg3 X_arg4 ⟨j, Nat.lt_of_succ_le hj⟩ ++ pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v3 v7 v9 v11 v12 X_arg2 X_arg3 X_arg4 j = _
    rw [tripL_eq, ih (Nat.le_of_succ_le hj), View.tilePieces_succ]
    rfl

/-- After the eight trips, row `n`, column `q` of the scratch is the block of trip `n / 32` at its row `n % 32`, column `q`,
    whatever the scratch held before the loop. -/
theorem scratch_read (f₀ : BufTy.Contents (Elt F) arg15.view.ty) (n : Fin 256) (q : Fin 128) :
    arg15.view.read (Elt F) (arg15.view.writes (Elt F) f₀ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v3 v7 v9 v11 v12 X_arg2 X_arg3 X_arg4 k0_t1_loop.trips)) (ix2 n q)
      = chunkStore (F := F) arg2 arg3 arg4 v0 v3 v7 v9 v11 v12 X_arg2 X_arg3 X_arg4 ⟨n.val / 32, by rw [trips_eq]; omega⟩ (ix2 ⟨n.val % 32, Nat.mod_lt _ (by decide)⟩ q) := by
  rw [pb_eq_tiles (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v3 v7 v9 v11 v12 X_arg2 X_arg3 X_arg4 k0_t1_loop.trips le_rfl]
  have htr := trips_eq
  refine View.read_tilePieces arg15.view f₀ S32x128.size (fun k => k0_off3 k) (fun k => k0_off3_inb k)
    (fun k => chunkStore (F := F) arg2 arg3 arg4 v0 v3 v7 v9 v11 v12 X_arg2 X_arg3 X_arg4 k) k0_t1_loop.trips le_rfl (ix2 n q) ⟨n.val / 32, by rw [trips_eq]; omega⟩
    (by show n.val / 32 < k0_t1_loop.trips; rw [trips_eq]; omega) (ix2 ⟨n.val % 32, Nat.mod_lt _ (by decide)⟩ q) ?_ (0 : Fin 2) ?_
  · intro a
    rw [k0_off3_eq]
    match a with
    | ⟨0, _⟩ => show n.val = 32 * (n.val / 32) + n.val % 32; omega
    | ⟨1, _⟩ => show q.val = 0 + q.val; omega
  · intro i' hne
    rw [k0_off3_eq]
    have hne' : i'.val ≠ n.val / 32 := fun h => hne (Fin.ext h)
    show n.val < 32 * i'.val ∨ 32 * i'.val + 32 ≤ n.val
    omega

/-- The aggregate loaded after the loop does not depend on what the scratch held before it: every row is written by its
    trip. (The trip count `N` is a variable equal to the loop's, so that the lemma rewrites whichever way the count is spelt.) -/
theorem scratch_load_indep (N : ℕ) (f₀ f₁ : BufTy.Contents (Elt F) arg15.view.ty)
    (inb : ∀ a, (![0, 0] : Fin 2 → ℕ) a + S256x128.size a ≤ S256x128.size a) (hN : N = k0_t1_loop.trips) :
    View.readAt (Elt F) arg15.view (Rect.unit (s := S256x128) ![0, 0] S256x128.size inb).toLoadRect
        (arg15.view.writes (Elt F) f₀ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v3 v7 v9 v11 v12 X_arg2 X_arg3 X_arg4 N))
      = View.readAt (Elt F) arg15.view (Rect.unit (s := S256x128) ![0, 0] S256x128.size inb).toLoadRect
        (arg15.view.writes (Elt F) f₁ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v3 v7 v9 v11 v12 X_arg2 X_arg3 X_arg4 N)) := by
  subst hN
  have hz : (![0, 0] : Fin 2 → ℕ) = fun _ => 0 := funext fun a => by match a with | ⟨0, _⟩ => rfl | ⟨1, _⟩ => rfl
  have whole : ∀ g : BufTy.Contents (Elt F) arg15.view.ty,
      View.readAt (Elt F) arg15.view (Rect.unit (s := S256x128) ![0, 0] S256x128.size inb).toLoadRect g
        = arg15.view.read (Elt F) g :=
    fun g => (View.readAt_eq_ld arg15.view g _).trans (View.ld_unit_zero (S := S256x128) hz inb _)
  rw [whole, whole]
  funext y
  obtain ⟨n, q, rfl⟩ : ∃ (n : Fin 256) (q : Fin 128), y = ix2 n q := ⟨y 0, y 1, eq_ix2 y⟩
  rw [scratch_read, scratch_read]

end Cert.FilterConv.Bits

end
-- ==== Proof.KernelLoop.lean ====
/-
  The scratch aggregate after the loop over the eight chunks, read at one row.

  Trip `k` of the loop stores ONE block into the 256 × 128 scratch: rows `[32·k, 32·k + 32)`, all 128 columns, holding the
  chunk's aggregate computed from the loads at the same chunk of the radial basis values, the mask and the index words.
  The pieces of the first `j` trips are therefore `j` equal-sized tiles that the row axis keeps apart, and after all eight
  trips row `n` of the scratch reads the block of trip `n / 32` at its local row `n % 32`, whatever the scratch held before.
-/
import proofs.«417244_j30623116820559_3_alg».proof.Proof.Gen.KernelIdeal.Loops
import proofs.«417244_j30623116820559_3_alg».proof.Proof.KernelRows
import Idealize.ShloMosaic.Lib.WritesUnit
import Idealize.ShloMosaic.Lib.Pipeline.Value
import Idealize.ShloMosaic.Lib.Pipeline.FrameBody
import Idealize.ShloMosaic.Lib.ValueIdx

set_option maxRecDepth 16384

noncomputable section

namespace Cert.FilterConv

open Idealize.ShloMosaic Idealize.ShloMosaic.ValueIdx Idealize.ShloMosaic.TcCoe Cert.KernelIdeal Cert.KernelIdeal.Gen

variable {F : FTy → Type} [FloatOps F]
variable (𝒱 : Variants) (c : Dev nD) (bd : Option 𝒱.V) (i : grid0.Coords) (arg1 : Memref sig .tc .vmem S1x256x128 .f32) (harg1 : arg1.IsWhole) (arg2 : Memref sig .tc .vmem S1x256x48x50 .f32) (harg2 : arg2.IsWhole) (arg3 : Memref sig .tc .vmem S1x256x48 .f32) (harg3 : arg3.IsWhole) (arg4 : Memref sig .tc .vmem S1x256x48 .i32) (harg4 : arg4.IsWhole) (arg5 : Memref sig .tc .vmem S50x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128x128 .f32) (harg12 : arg12.IsWhole) (arg13 : Memref sig .tc .vmem S128 .f32) (harg13 : arg13.IsWhole) (arg14 : Memref sig .tc .vmem S1x256x128 .f32) (harg14 : arg14.IsWhole) (arg15 : Memref sig .tc .vmem S256x128 .f32) (harg15 : arg15.IsWhole) (v0 : Vec F S1x256x128 .f32) (v3 : Vec F S128x128 .f32) (v7 : Vec F S50x128 .f32) (v9 : Vec F S128x128 .f32) (v11 : Vec F S128 .f32) (v12 : Vec F S128 .f32) (X_arg2 : BufTy.Contents (Elt F) arg2.view.ty) (X_arg3 : BufTy.Contents (Elt F) arg3.view.ty) (X_arg4 : BufTy.Contents (Elt F) arg4.view.ty)

/-- The block trip `k` stores: the chunk's aggregate, from the loads at chunk `k`. -/
def chunkStore (k : Fin k0_t1_loop.trips) : Vec F S32x128 .f32 :=
  k0_pay6 v0 v3
    (k0_pay2 (k0_pay4 v7) (k0_pay5 v9) v11 v12
      (View.readAt (Elt F) arg2.view (Rect.unit (s := S1x256x48x50) (k0_off1 k) S1x32x48x50.size (k0_off1_inb k)).toLoadRect X_arg2)
      (View.readAt (Elt F) arg3.view (Rect.unit (s := S1x256x48) (k0_off2 k) S1x32x48.size (k0_off2_inb k)).toLoadRect X_arg3))
    (k0_pay3 (View.readAt (Elt F) arg4.view (Rect.unit (s := S1x256x48) (k0_off2 k) S1x32x48.size (k0_off2_inb k)).toLoadRect X_arg4))

/-- Trip `k` leaves one piece: the store of its block at rows `[32·k, 32·k + 32)`. -/
theorem tripL_eq (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v3 v7 v9 v11 v12 X_arg2 X_arg3 X_arg4 k
      = [⟨Rect.unit (s := S256x128) (k0_off3 k) S32x128.size (k0_off3_inb k),
          chunkStore (F := F) arg2 arg3 arg4 v0 v3 v7 v9 v11 v12 X_arg2 X_arg3 X_arg4 k⟩] := by
  unfold tripL_k0_t1 trip_k0_t1 chunkStore
  rfl

/-- The loop makes eight trips. -/
theorem trips_eq : k0_t1_loop.trips = 8 := by decide

/-- The pieces of the first `j` trips are `j` tiles of 32 rows, trip `k`'s at rows `[32·k, 32·k + 32)`. -/
theorem pb_eq_tiles (j : ℕ) (hj : j ≤ k0_t1_loop.trips) :
    pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v3 v7 v9 v11 v12 X_arg2 X_arg3 X_arg4 j
      = View.tilePieces (s := S256x128) (Val := Elt F) (e := .f32) S32x128.size (fun k => k0_off3 k) (fun k => k0_off3_inb k)
          (fun k => chunkStore (F := F) arg2 arg3 arg4 v0 v3 v7 v9 v11 v12 X_arg2 X_arg3 X_arg4 k) j hj := by
  induction j with
  | zero => rfl
  | succ j ih =>
    refine (pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v3 v7 v9 v11 v12 X_arg2 X_arg3 X_arg4 ⟨j, Nat.lt_of_succ_le hj⟩).trans ?_
    show tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v3 v7 v9 v11 v12 X_arg2 X_arg3 X_arg4 ⟨j, Nat.lt_of_succ_le hj⟩ ++ pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v3 v7 v9 v11 v12 X_arg2 X_arg3 X_arg4 j = _
    rw [tripL_eq, ih (Nat.le_of_succ_le hj), View.tilePieces_succ]
    rfl

/-- After the eight trips, row `n`, column `q` of the scratch is the block of trip `n / 32` at its row `n % 32`, column `q`,
    whatever the scratch held before the loop. -/
theorem scratch_read (f₀ : BufTy.Contents (Elt F) arg15.view.ty) (n : Fin 256) (q : Fin 128) :
    arg15.view.read (Elt F) (arg15.view.writes (Elt F) f₀ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v3 v7 v9 v11 v12 X_arg2 X_arg3 X_arg4 k0_t1_loop.trips)) (ix2 n q)
      = chunkStore (F := F) arg2 arg3 arg4 v0 v3 v7 v9 v11 v12 X_arg2 X_arg3 X_arg4 ⟨n.val / 32, by rw [trips_eq]; omega⟩ (ix2 ⟨n.val % 32, Nat.mod_lt _ (by decide)⟩ q) := by
  rw [pb_eq_tiles (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v3 v7 v9 v11 v12 X_arg2 X_arg3 X_arg4 k0_t1_loop.trips le_rfl]
  have htr := trips_eq
  refine View.read_tilePieces arg15.view f₀ S32x128.size (fun k => k0_off3 k) (fun k => k0_off3_inb k)
    (fun k => chunkStore (F := F) arg2 arg3 arg4 v0 v3 v7 v9 v11 v12 X_arg2 X_arg3 X_arg4 k) k0_t1_loop.trips le_rfl (ix2 n q) ⟨n.val / 32, by rw [trips_eq]; omega⟩
    (by show n.val / 32 < k0_t1_loop.trips; rw [trips_eq]; omega) (ix2 ⟨n.val % 32, Nat.mod_lt _ (by decide)⟩ q) ?_ (0 : Fin 2) ?_
  · intro a
    rw [k0_off3_eq]
    match a with
    | ⟨0, _⟩ => show n.val = 32 * (n.val / 32) + n.val % 32; omega
    | ⟨1, _⟩ => show q.val = 0 + q.val; omega
  · intro i' hne
    rw [k0_off3_eq]
    have hne' : i'.val ≠ n.val / 32 := fun h => hne (Fin.ext h)
    show n.val < 32 * i'.val ∨ 32 * i'.val + 32 ≤ n.val
    omega

/-- The aggregate loaded after the loop does not depend on what the scratch held before it: every row is written by its
    trip. (The trip count `N` is a variable equal to the loop's, so that the lemma rewrites whichever way the count is spelt.) -/
theorem scratch_load_indep (N : ℕ) (f₀ f₁ : BufTy.Contents (Elt F) arg15.view.ty)
    (inb : ∀ a, (![0, 0] : Fin 2 → ℕ) a + S256x128.size a ≤ S256x128.size a) (hN : N = k0_t1_loop.trips) :
    View.readAt (Elt F) arg15.view (Rect.unit (s := S256x128) ![0, 0] S256x128.size inb).toLoadRect
        (arg15.view.writes (Elt F) f₀ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v3 v7 v9 v11 v12 X_arg2 X_arg3 X_arg4 N))
      = View.readAt (Elt F) arg15.view (Rect.unit (s := S256x128) ![0, 0] S256x128.size inb).toLoadRect
        (arg15.view.writes (Elt F) f₁ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v3 v7 v9 v11 v12 X_arg2 X_arg3 X_arg4 N)) := by
  subst hN
  have hz : (![0, 0] : Fin 2 → ℕ) = fun _ => 0 := funext fun a => by match a with | ⟨0, _⟩ => rfl | ⟨1, _⟩ => rfl
  have whole : ∀ g : BufTy.Contents (Elt F) arg15.view.ty,
      View.readAt (Elt F) arg15.view (Rect.unit (s := S256x128) ![0, 0] S256x128.size inb).toLoadRect g
        = arg15.view.read (Elt F) g :=
    fun g => (View.readAt_eq_ld arg15.view g _).trans (View.ld_unit_zero (S := S256x128) hz inb _)
  rw [whole, whole]
  funext y
  obtain ⟨n, q, rfl⟩ : ∃ (n : Fin 256) (q : Fin 128), y = ix2 n q := ⟨y 0, y 1, eq_ix2 y⟩
  rw [scratch_read, scratch_read]

end Cert.FilterConv

end
-- ==== Proof.Spec.lean ====
/-
  The continuous-filter convolution block over the extended reals.

  Row by row (one atom `n` of one batch, its 48 neighbour slots `m`):
    hiddenRow d g    = ssp (∑ₖ d[k] · W₁[k,g] + b₁[g])                      first filter layer over a slot's 50 radial basis values `d`
    filterRow d μ f  = (∑_g hiddenRow d g · W₂[g,f] + b₂[f]) · μ            second filter layer, times the slot's mask value `μ`
    projRow x f      = ∑ₐ x[a] · W_in[a,f]                                  an atom's features `x` in filter space
    aggRow f         = ∑ₘ projRow (x[nbr m]) f · filterRow (d m) (μ m) f    the sum over the neighbour slots; `nbr m` the slot's atom number
    outRow agg c     = ∑ₐ ssp (∑_f agg[f] · W_out[f,a] + b_out[a]) · W_d[a,c] + b_d[c]
  where `ssp x = max x 0 + log (1 + exp (−|x|)) − c₂` is the shifted softplus, `c₂` the single-precision word both
  programs subtract, and a slot's atom number is its index word's value reduced into `[0, 256)` (so that the function is
  total; where the word lies in that range it is the word's value).
  `out` is one batch's result from the batch's slabs of the arguments, `result` the whole array.
-/
import Idealize.ShloMosaic.PureOps.Ideal
import Idealize.ShloMosaic.Lib.ValueIdx

noncomputable section

namespace Cert.FilterConv

open Idealize.ShloMosaic Idealize.ShloMosaic.ValueIdx

/-- The shifted softplus on the extended reals, in the form both programs compute it: the larger of `x` and `0`, plus
    `log (1 + exp (−|x|))` with `|x| = max x (−x)`, minus the single-precision word nearest `log 2`. -/
def ssp (x : EReal) : EReal :=
  max x 0 + Ideal.log1p (Ideal.exp (-(max x (-x)))) - Ideal.ofBits .f32 0x3F317218#32

/-- The atom number an index word names: its value reduced into `[0, 256)`. -/
def atomOf (w : BitVec 32) : Fin 256 := ⟨w.toNat % 256, Nat.mod_lt _ (by decide)⟩

theorem atomOf_val_of_lt {w : BitVec 32} (h : w.toNat < 256) : (atomOf w).val = w.toNat := Nat.mod_eq_of_lt h

section Rows
variable (W1 : Fin 50 → Fin 128 → EReal) (b1 : Fin 128 → EReal) (W2 : Fin 128 → Fin 128 → EReal) (b2 : Fin 128 → EReal)
  (Win : Fin 128 → Fin 128 → EReal) (Wout : Fin 128 → Fin 128 → EReal) (bout : Fin 128 → EReal)
  (Wd : Fin 128 → Fin 128 → EReal) (bd : Fin 128 → EReal)

/-- First filter layer of one neighbour slot: the activation of its radial basis values `d` through `W₁`. -/
def hiddenRow (d : Fin 50 → EReal) (g : Fin 128) : EReal := ssp ((∑ k : Fin 50, d k * W1 k g) + b1 g)

/-- Second filter layer of one neighbour slot, multiplied by the slot's mask value `μ`. -/
def filterRow (d : Fin 50 → EReal) (μ : EReal) (f : Fin 128) : EReal :=
  ((∑ g : Fin 128, hiddenRow W1 b1 d g * W2 g f) + b2 f) * μ

/-- One atom's features projected into filter space. -/
def projRow (x : Fin 128 → EReal) (f : Fin 128) : EReal := ∑ a : Fin 128, x a * Win a f

/-- One atom's aggregate: the filter-weighted sum of its neighbours' projected features over the 48 slots, the
    neighbours read out of the batch's feature slab `x` at the atom numbers the words `w` name. -/
def aggRow (x : Fin 256 → Fin 128 → EReal) (μ : Fin 48 → EReal) (w : Fin 48 → BitVec 32) (d : Fin 48 → Fin 50 → EReal)
    (f : Fin 128) : EReal :=
  ∑ m : Fin 48, projRow Win (x (atomOf (w m))) f * filterRow W1 b1 W2 b2 (d m) (μ m) f

/-- One atom's result from its aggregate: the activated output layer through the final dense layer. -/
def outRow (agg : Fin 128 → EReal) (c : Fin 128) : EReal :=
  (∑ a : Fin 128, ssp ((∑ f : Fin 128, agg f * Wout f a) + bout a) * Wd a c) + bd c

/-- One batch's result at atom `n`, feature `c`, from the batch's slabs. -/
def out (x : Fin 256 → Fin 128 → EReal) (mask : Fin 256 → Fin 48 → EReal) (nbr : Fin 256 → Fin 48 → BitVec 32)
    (dist : Fin 256 → Fin 48 → Fin 50 → EReal) (n : Fin 256) (c : Fin 128) : EReal :=
  outRow Wout bout Wd bd (aggRow W1 b1 W2 b2 Win x (mask n) (nbr n) (dist n)) c

end Rows

abbrev SX : Shape := ⟨3, ![32, 256, 128]⟩
abbrev SM : Shape := ⟨3, ![32, 256, 48]⟩
abbrev SD : Shape := ⟨4, ![32, 256, 48, 50]⟩
abbrev SW1 : Shape := ⟨2, ![50, 128]⟩
abbrev SW : Shape := ⟨2, ![128, 128]⟩
abbrev SB : Shape := ⟨1, ![128]⟩

/-- The whole result array: entry `(b, n, c)` is `out n c` of batch `b`'s slabs of the argument arrays. -/
def result (x : SX.Idx → EReal) (mask : SM.Idx → EReal) (nbr : SM.Idx → BitVec 32) (dist : SD.Idx → EReal)
    (W1 : SW1.Idx → EReal) (b1 : SB.Idx → EReal) (W2 : SW.Idx → EReal) (b2 : SB.Idx → EReal) (Win : SW.Idx → EReal)
    (Wout : SW.Idx → EReal) (bout : SB.Idx → EReal) (Wd : SW.Idx → EReal) (bd : SB.Idx → EReal) : SX.Idx → EReal :=
  fun i => out (fun k g => W1 (ix2 k g)) (fun g => b1 (ix1 g)) (fun g f => W2 (ix2 g f)) (fun f => b2 (ix1 f))
    (fun a f => Win (ix2 a f)) (fun f a => Wout (ix2 f a)) (fun a => bout (ix1 a)) (fun a c => Wd (ix2 a c))
    (fun c => bd (ix1 c)) (fun n a => x (ix3 (i 0) n a)) (fun n m => mask (ix3 (i 0) n m))
    (fun n m => nbr (ix3 (i 0) n m)) (fun n m k => dist (ix4 (i 0) n m k)) (i 1) (i 2)

end Cert.FilterConv

end
-- ==== Proof.LibMatmulAt.lean ====
/-
  A matrix product into a zero accumulator, read at one entry over the extended reals.

  For dimension numbers that contract the left operand's second axis with the right operand's first, with no batch
  axis — so that the left operand is read at (row, k) and the right at (k, column) — the entry (p, q) of the product
  of an [A × K] and a [K × B] matrix is `∑ₖ l[p, k] · r[k, q]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · r` accumulated into zero is the sum over the contracted axis of `l[p, k] · r[k, q]`, for
    dimension numbers `D` whose one contracted axis has extent `K` (`hr`, `hs`) and which read the left operand at
    (row, k) (`hl0`, `hl1`) and the right at (k, column) (`hr0`, `hr1`). -/
theorem matmul_zero_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![A, K]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulAt

end
-- ==== Proof.KernelBodyFilter.lean ====
/-
  The loop body's filter network, read at one row and feature over the extended reals.

  Per chunk of 32 atoms the body loads the chunk's radial basis values (32 × 48 × 50), flattens them to 1536 rows of 50,
  and computes for every row and feature: the first layer `ssp (row · W₁ + b₁)`, the second layer `hidden · W₂ + b₂`, and
  the product with the row's mask value. A matrix product into a zero accumulator is the sum over the contracted axis, a
  change of float format is the identity, the softplus's NaN guard (`x ≠ x`) never holds on the extended reals, and
  `0 − y = −y`: so the value is the specification's `filterRow` of the slot's 50 values and its mask value.
  The index words are only re-laid: row `48·a + s` holds the word of slot `s` of atom `a`.
-/
import proofs.«417244_j30623116820559_3_alg».proof.Proof.Gen.KernelIdeal.Skeleton
import proofs.«417244_j30623116820559_3_alg».proof.Proof.Spec
import proofs.«417244_j30623116820559_3_alg».proof.Proof.LibMatmulAt
import proofs.«417244_j30623116820559_3_alg».proof.Proof.KernelRows
import Idealize.ShloMosaic.Lib.ValueIdx
import Idealize.ShloMosaic.Lib.ValueLayout
import Idealize.ShloMosaic.Lib.Pipeline.Value
import Idealize.ShloMosaic.PureOps.Ideal.Laws

noncomputable section

namespace Cert.FilterConv

open Idealize.ShloMosaic Idealize.ShloMosaic.ValueIdx Cert.KernelIdeal Cert.KernelIdeal.Gen

/-! ## Row-major reshapes and the column broadcast, read at an index given by coordinates -/

section Layout
variable {α : Type}

/-- An `[a, b]` array cast to the column `[n, 1]` reads, at row `p = i·b + j`, the operand at `(i, j)`. -/
theorem shapeCast_ab_n1_apply {a b n : ℕ} (x : (⟨2, ![a, b]⟩ : Shape).Idx → α)
    (h : (⟨2, ![a, b]⟩ : Shape).ShapeCasts ⟨2, ![n, 1]⟩) (p : Fin n) (u : Fin 1) (i : Fin a) (j : Fin b)
    (hp : p.val = i.val * b + j.val) : shapeCast ⟨2, ![n, 1]⟩ x h (ix2 p u) = x (ix2 i j) :=
  shapeCast_apply x h _ _ (by
    have hu : u.val = 0 := by omega
    rw [Shape.rowMajor_val_two, Shape.rowMajor_val_two]
    show i.val * b + j.val = p.val * 1 + u.val
    rw [hu, hp, Nat.mul_one, Nat.add_zero])

/-- An `[a, b, c]` array cast to `[n, c]` reads, at row `p = i·b + j` and column `k`, the operand at `(i, j, k)`. -/
theorem shapeCast_abc_nc_apply {a b c n : ℕ} (x : (⟨3, ![a, b, c]⟩ : Shape).Idx → α)
    (h : (⟨3, ![a, b, c]⟩ : Shape).ShapeCasts ⟨2, ![n, c]⟩) (p : Fin n) (i : Fin a) (j : Fin b) (k : Fin c)
    (hp : p.val = i.val * b + j.val) : shapeCast ⟨2, ![n, c]⟩ x h (ix2 p k) = x (ix3 i j k) :=
  shapeCast_apply x h _ _ (by
    rw [Shape.rowMajor_val_three, Shape.rowMajor_val_two]
    show (i.val * b + j.val) * c + k.val = p.val * c + k.val
    rw [hp])

/-- A column `[a, 1]` broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- Row `48·a + s` as the row-major position of `(a, s)` in 32 × 48. -/
theorem slotRow_rowMajor (a : Fin 32) (s : Fin 48) : (slotRow a s).val = a.val * 48 + s.val := by
  rw [slotRow_val, Nat.mul_comm]

/-! ## Where the two products' dimension numbers read their operands -/

theorem dot1_lhs0 (i : S1536x128.Idx) (q : dot_S1536x50_S50x128_S1536x128_1_0_0_1_n_n.contr.Idx) :
    (dot_S1536x50_S50x128_S1536x128_1_0_0_1_n_n.lhsIdx i q 0).val = (i 0).val := by
  unfold DotDims.lhsIdx
  rw [dif_neg (show ¬(0 : Fin S1536x50.rank) ∈ dot_S1536x50_S50x128_S1536x128_1_0_0_1_n_n.lhsBatch by decide), dif_pos (show (0 : Fin S1536x50.rank) ∈ dot_S1536x50_S50x128_S1536x128_1_0_0_1_n_n.lhsNonContracting by decide)]
  rfl
theorem dot1_lhs1 (i : S1536x128.Idx) (q : dot_S1536x50_S50x128_S1536x128_1_0_0_1_n_n.contr.Idx) :
    (dot_S1536x50_S50x128_S1536x128_1_0_0_1_n_n.lhsIdx i q 1).val = (q ⟨0, by decide⟩).val :=
  dot_S1536x50_S50x128_S1536x128_1_0_0_1_n_n.lhsIdx_val_of_single rfl i q
theorem dot1_rhs0 (i : S1536x128.Idx) (q : dot_S1536x50_S50x128_S1536x128_1_0_0_1_n_n.contr.Idx) :
    (dot_S1536x50_S50x128_S1536x128_1_0_0_1_n_n.rhsIdx i q 0).val = (q ⟨0, by decide⟩).val :=
  dot_S1536x50_S50x128_S1536x128_1_0_0_1_n_n.rhsIdx_val_of_single rfl i q
theorem dot1_rhs1 (i : S1536x128.Idx) (q : dot_S1536x50_S50x128_S1536x128_1_0_0_1_n_n.contr.Idx) :
    (dot_S1536x50_S50x128_S1536x128_1_0_0_1_n_n.rhsIdx i q 1).val = (i 1).val := by
  unfold DotDims.rhsIdx
  rw [dif_neg (show ¬(1 : Fin S50x128.rank) ∈ dot_S1536x50_S50x128_S1536x128_1_0_0_1_n_n.rhsBatch by decide), dif_pos (show (1 : Fin S50x128.rank) ∈ dot_S1536x50_S50x128_S1536x128_1_0_0_1_n_n.rhsNonContracting by decide)]
  rfl

theorem dot2_lhs0 (i : S1536x128.Idx) (q : dot_S1536x128_S128x128_S1536x128_1_0_0_1_n_n.contr.Idx) :
    (dot_S1536x128_S128x128_S1536x128_1_0_0_1_n_n.lhsIdx i q 0).val = (i 0).val := by
  unfold DotDims.lhsIdx
  rw [dif_neg (show ¬(0 : Fin S1536x128.rank) ∈ dot_S1536x128_S128x128_S1536x128_1_0_0_1_n_n.lhsBatch by decide), dif_pos (show (0 : Fin S1536x128.rank) ∈ dot_S1536x128_S128x128_S1536x128_1_0_0_1_n_n.lhsNonContracting by decide)]
  rfl
theorem dot2_lhs1 (i : S1536x128.Idx) (q : dot_S1536x128_S128x128_S1536x128_1_0_0_1_n_n.contr.Idx) :
    (dot_S1536x128_S128x128_S1536x128_1_0_0_1_n_n.lhsIdx i q 1).val = (q ⟨0, by decide⟩).val :=
  dot_S1536x128_S128x128_S1536x128_1_0_0_1_n_n.lhsIdx_val_of_single rfl i q
theorem dot2_rhs0 (i : S1536x128.Idx) (q : dot_S1536x128_S128x128_S1536x128_1_0_0_1_n_n.contr.Idx) :
    (dot_S1536x128_S128x128_S1536x128_1_0_0_1_n_n.rhsIdx i q 0).val = (q ⟨0, by decide⟩).val :=
  dot_S1536x128_S128x128_S1536x128_1_0_0_1_n_n.rhsIdx_val_of_single rfl i q
theorem dot2_rhs1 (i : S1536x128.Idx) (q : dot_S1536x128_S128x128_S1536x128_1_0_0_1_n_n.contr.Idx) :
    (dot_S1536x128_S128x128_S1536x128_1_0_0_1_n_n.rhsIdx i q 1).val = (i 1).val := by
  unfold DotDims.rhsIdx
  rw [dif_neg (show ¬(1 : Fin S128x128.rank) ∈ dot_S1536x128_S128x128_S1536x128_1_0_0_1_n_n.rhsBatch by decide), dif_pos (show (1 : Fin S128x128.rank) ∈ dot_S1536x128_S128x128_S1536x128_1_0_0_1_n_n.rhsNonContracting by decide)]
  rfl

/-! ## The shifted softplus at a point -/

/-- Nothing is unequal to itself: the guard's bit is 0. -/
theorem cmp_one_self (y : EReal) : Ideal.cmp .one y y = 0#1 := by
  unfold Ideal.cmp
  show BitVec.ofBool (decide (y ≠ y)) = 0#1
  rw [decide_eq_false (fun h => h rfl)]
  rfl

/-- The body's activation read at an index: with the zero word the extended real 0, the guarded branch is never taken,
    `y − 0 = y`, `0 − |y| = −|y|` and `|y| = max y (−y)`, which is the specification's `ssp`. -/
theorem softplus_apply {sh : Shape} (y : FVec Ideal sh .f32) (i : sh.Idx) :
    subf
        (select (cmpf .one (subf y (broadcast sh (Scalar.ofBits (F := Ideal) .f32 0x00000000#32)))
            (subf y (broadcast sh (Scalar.ofBits (F := Ideal) .f32 0x00000000#32))))
          (addf y (broadcast sh (Scalar.ofBits (F := Ideal) .f32 0x00000000#32)))
          (addf (maximumf y (broadcast sh (Scalar.ofBits (F := Ideal) .f32 0x00000000#32)))
            (log1p (exp (subf (broadcast sh (Scalar.ofBits (F := Ideal) .f32 0x00000000#32))
              (absf (subf y (broadcast sh (Scalar.ofBits (F := Ideal) .f32 0x00000000#32)))))))))
        (broadcast sh (Scalar.ofBits (F := Ideal) .f32 0x3F317218#32)) i
      = ssp (y i) := by
  show Scalar.select (Ideal.cmp .one (y i - Ideal.ofBits .f32 0x00000000#32) (y i - Ideal.ofBits .f32 0x00000000#32))
        (y i + Ideal.ofBits .f32 0x00000000#32)
        (max (y i) (Ideal.ofBits .f32 0x00000000#32)
          + Ideal.log1p (Ideal.exp (Ideal.ofBits .f32 0x00000000#32
              - max (y i - Ideal.ofBits .f32 0x00000000#32) (-(y i - Ideal.ofBits .f32 0x00000000#32)))))
      - Ideal.ofBits .f32 0x3F317218#32 = ssp (y i)
  rw [Ideal.ofBits_zero_f32, sub_zero, zero_sub, cmp_one_self, select_zero]
  rfl

/-- The index words of a chunk, one per row: the loaded 32 × 48 block flattened. -/
theorem wordRow_at (v92 : Vec Ideal S1x32x48 .i32) (a : Fin 32) (s : Fin 48) :
    k0_pay3 (F := Ideal) v92 (ix2 (slotRow a s) (0 : Fin 1)) = v92 (ix3 (0 : Fin 1) a s) := by
  unfold k0_pay3
  refine (shapeCast_ab_n1_apply _ shapeCasts_S32x48_S1536x1 (slotRow a s) (0 : Fin 1) a s (slotRow_rowMajor a s)).trans ?_
  exact shapeCast_1ab_ab_apply v92 shapeCasts_S1x32x48_S32x48 a s

/-- The masked filter value of a chunk at row `48·a + s`, feature `f`: the specification's `filterRow` of the slot's
    radial basis values and mask value. -/
theorem filterRow_at (v8 : FVec Ideal S50x128 .bf16) (v10 : FVec Ideal S128x128 .bf16) (v11 v12 : Vec Ideal S128 .f32)
    (v56 : Vec Ideal S1x32x48x50 .f32) (v86 : Vec Ideal S1x32x48 .f32) (a : Fin 32) (s : Fin 48) (f : Fin 128) :
    k0_pay2 (F := Ideal) v8 v10 v11 v12 v56 v86 (ix2 (slotRow a s) f)
      = filterRow (fun k g => v8 (ix2 k g)) (fun g => v11 (ix1 g)) (fun g f => v10 (ix2 g f)) (fun f => v12 (ix1 f))
          (fun k => v56 (ix4 (0 : Fin 1) a s k)) (v86 (ix3 (0 : Fin 1) a s)) f := by
  unfold k0_pay2 filterRow
  refine (mulf_apply _ _ _).trans ?_
  refine congrArg₂ (· * ·) ?_ ?_
  · -- the second layer: hidden · W₂ + b₂
    refine (addf_apply _ _ _).trans ?_
    refine congrArg₂ (· + ·) ?_ ?_
    · refine (Idealize.ShloMosaic.MatmulAt.matmul_zero_at dot_S1536x128_S128x128_S1536x128_1_0_0_1_n_n rfl rfl
        dot2_lhs0 dot2_lhs1 dot2_rhs0 dot2_rhs1 none _ v10 (slotRow a s) f).trans ?_
      refine Finset.sum_congr rfl fun g _ => ?_
      refine congrArg (· * v10 (ix2 g f)) ?_
      -- the first layer at (row, g): ssp (row · W₁ + b₁)
      unfold hiddenRow
      refine (truncf_apply (ψ := .bf16) _ bitsLt_bf16_f32 _).trans ?_
      refine (softplus_apply _ _).trans (congrArg ssp ?_)
      refine (addf_apply _ _ _).trans ?_
      refine congrArg₂ (· + ·) ?_ ?_
      · refine (Idealize.ShloMosaic.MatmulAt.matmul_zero_at dot_S1536x50_S50x128_S1536x128_1_0_0_1_n_n rfl rfl
          dot1_lhs0 dot1_lhs1 dot1_rhs0 dot1_rhs1 none _ v8 (slotRow a s) g).trans ?_
        refine Finset.sum_congr rfl fun k _ => ?_
        refine congrArg (· * v8 (ix2 k g)) ?_
        refine (truncf_apply (ψ := .bf16) _ bitsLt_bf16_f32 _).trans ?_
        refine (shapeCast_abc_nc_apply _ shapeCasts_S32x48x50_S1536x50 (slotRow a s) a s k (slotRow_rowMajor a s)).trans ?_
        exact shapeCast_1abc_abc_apply v56 shapeCasts_S1x32x48x50_S32x48x50 a s k
      · refine (broadcastTo_1b_ab_apply _ broadcasts_S1x128_S1536x128 (slotRow a s) g).trans ?_
        exact shapeCast_a_1a_apply v11 shapeCasts_S128_S1x128 (0 : Fin 1) g
    · refine (broadcastTo_1b_ab_apply _ broadcasts_S1x128_S1536x128 (slotRow a s) f).trans ?_
      exact shapeCast_a_1a_apply v12 shapeCasts_S128_S1x128 (0 : Fin 1) f
  · -- the row's mask value
    refine (broadcastTo_a1_ab_apply _ broadcasts_S1536x1_S1536x128 (slotRow a s) f).trans ?_
    refine (shapeCast_ab_n1_apply _ shapeCasts_S32x48_S1536x1 (slotRow a s) (0 : Fin 1) a s (slotRow_rowMajor a s)).trans ?_
    exact shapeCast_1ab_ab_apply v86 shapeCasts_S1x32x48_S32x48 a s

end Cert.FilterConv

end
-- ==== Proof.KernelBodyAgg.lean ====
/-
  The loop body's gather-and-sum and the body's last stage, read at one index over the extended reals.

  Per chunk the body gathers each row's neighbour out of the batch's projected features `x · W_in` (256 × 128) by a matrix
  product with the 0/1 matrix `[index word = lane]` (1536 × 256): on the extended reals `0 · y = 0` and `1 · y = y`, so
  the sum over the 256 lanes is the one row the word names, when the word is below 256. It multiplies by the row's filter
  value and sums each atom's 48 rows (the rows `48·a + s`). After the loop, row `n` of the 256 × 128 aggregate goes through
  `ssp (· W_out + b_out)` and the final dense layer: the specification's `outRow`.
-/
import proofs.«417244_j30623116820559_3_alg».proof.Proof.Gen.KernelIdeal.Skeleton
import proofs.«417244_j30623116820559_3_alg».proof.Proof.Spec
import proofs.«417244_j30623116820559_3_alg».proof.Proof.LibMatmulAt
import proofs.«417244_j30623116820559_3_alg».proof.Proof.KernelRows
import Idealize.ShloMosaic.Lib.ValueIdx
import Idealize.ShloMosaic.Lib.ValueLayout
import Idealize.ShloMosaic.Lib.Pipeline.Value
import Idealize.ShloMosaic.PureOps.Ideal.Laws

noncomputable section

namespace Cert.FilterConv

open Idealize.ShloMosaic Idealize.ShloMosaic.ValueIdx Cert.KernelIdeal Cert.KernelIdeal.Gen

/-! ## Where the two matrix-product records read their operands

Both records contract the left operand's axis 1 with the right operand's axis 0 and have no batch axis: the left operand
is read at (row, k), the right at (k, column). -/

theorem dotP_lhs0 (i : S256x128.Idx) (q : dot_S256x128_S128x128_S256x128_1_0_0_1_n_n.contr.Idx) :
    (dot_S256x128_S128x128_S256x128_1_0_0_1_n_n.lhsIdx i q 0).val = (i 0).val := by
  unfold DotDims.lhsIdx
  rw [dif_neg (show ¬(0 : Fin S256x128.rank) ∈ dot_S256x128_S128x128_S256x128_1_0_0_1_n_n.lhsBatch by decide), dif_pos (show (0 : Fin S256x128.rank) ∈ dot_S256x128_S128x128_S256x128_1_0_0_1_n_n.lhsNonContracting by decide)]
  rfl
theorem dotP_lhs1 (i : S256x128.Idx) (q : dot_S256x128_S128x128_S256x128_1_0_0_1_n_n.contr.Idx) :
    (dot_S256x128_S128x128_S256x128_1_0_0_1_n_n.lhsIdx i q 1).val = (q ⟨0, by decide⟩).val :=
  dot_S256x128_S128x128_S256x128_1_0_0_1_n_n.lhsIdx_val_of_single rfl i q
theorem dotP_rhs0 (i : S256x128.Idx) (q : dot_S256x128_S128x128_S256x128_1_0_0_1_n_n.contr.Idx) :
    (dot_S256x128_S128x128_S256x128_1_0_0_1_n_n.rhsIdx i q 0).val = (q ⟨0, by decide⟩).val :=
  dot_S256x128_S128x128_S256x128_1_0_0_1_n_n.rhsIdx_val_of_single rfl i q
theorem dotP_rhs1 (i : S256x128.Idx) (q : dot_S256x128_S128x128_S256x128_1_0_0_1_n_n.contr.Idx) :
    (dot_S256x128_S128x128_S256x128_1_0_0_1_n_n.rhsIdx i q 1).val = (i 1).val := by
  unfold DotDims.rhsIdx
  rw [dif_neg (show ¬(1 : Fin S128x128.rank) ∈ dot_S256x128_S128x128_S256x128_1_0_0_1_n_n.rhsBatch by decide), dif_pos (show (1 : Fin S128x128.rank) ∈ dot_S256x128_S128x128_S256x128_1_0_0_1_n_n.rhsNonContracting by decide)]
  rfl

theorem dotG_lhs0 (i : S1536x128.Idx) (q : dot_S1536x256_S256x128_S1536x128_1_0_0_1_n_n.contr.Idx) :
    (dot_S1536x256_S256x128_S1536x128_1_0_0_1_n_n.lhsIdx i q 0).val = (i 0).val := by
  unfold DotDims.lhsIdx
  rw [dif_neg (show ¬(0 : Fin S1536x256.rank) ∈ dot_S1536x256_S256x128_S1536x128_1_0_0_1_n_n.lhsBatch by decide), dif_pos (show (0 : Fin S1536x256.rank) ∈ dot_S1536x256_S256x128_S1536x128_1_0_0_1_n_n.lhsNonContracting by decide)]
  rfl
theorem dotG_lhs1 (i : S1536x128.Idx) (q : dot_S1536x256_S256x128_S1536x128_1_0_0_1_n_n.contr.Idx) :
    (dot_S1536x256_S256x128_S1536x128_1_0_0_1_n_n.lhsIdx i q 1).val = (q ⟨0, by decide⟩).val :=
  dot_S1536x256_S256x128_S1536x128_1_0_0_1_n_n.lhsIdx_val_of_single rfl i q
theorem dotG_rhs0 (i : S1536x128.Idx) (q : dot_S1536x256_S256x128_S1536x128_1_0_0_1_n_n.contr.Idx) :
    (dot_S1536x256_S256x128_S1536x128_1_0_0_1_n_n.rhsIdx i q 0).val = (q ⟨0, by decide⟩).val :=
  dot_S1536x256_S256x128_S1536x128_1_0_0_1_n_n.rhsIdx_val_of_single rfl i q
theorem dotG_rhs1 (i : S1536x128.Idx) (q : dot_S1536x256_S256x128_S1536x128_1_0_0_1_n_n.contr.Idx) :
    (dot_S1536x256_S256x128_S1536x128_1_0_0_1_n_n.rhsIdx i q 1).val = (i 1).val := by
  unfold DotDims.rhsIdx
  rw [dif_neg (show ¬(1 : Fin S256x128.rank) ∈ dot_S1536x256_S256x128_S1536x128_1_0_0_1_n_n.rhsBatch by decide), dif_pos (show (1 : Fin S256x128.rank) ∈ dot_S1536x256_S256x128_S1536x128_1_0_0_1_n_n.rhsNonContracting by decide)]
  rfl

/-- The projection product at (p, q). -/
theorem dotP_at {φ₁ φ₂ : FTy} (l : FVec Ideal S256x128 φ₁) (r : FVec Ideal S128x128 φ₂) (p : Fin 256) (q : Fin 128) :
    FloatOps.matmul dot_S256x128_S128x128_S256x128_1_0_0_1_n_n none l r (constant (F := Ideal) S256x128 .f32 0x00000000#32) (ix2 p q)
      = ∑ k : Fin 128, l (ix2 p k) * r (ix2 k q) :=
  MatmulAt.matmul_zero_at dot_S256x128_S128x128_S256x128_1_0_0_1_n_n rfl rfl dotP_lhs0 dotP_lhs1 dotP_rhs0 dotP_rhs1 none l r p q

/-- The gather product at (p, q). -/
theorem dotG_at {φ₁ φ₂ : FTy} (l : FVec Ideal S1536x256 φ₁) (r : FVec Ideal S256x128 φ₂) (p : Fin 1536) (q : Fin 128) :
    FloatOps.matmul dot_S1536x256_S256x128_S1536x128_1_0_0_1_n_n none l r (constant (F := Ideal) S1536x128 .f32 0x00000000#32) (ix2 p q)
      = ∑ k : Fin 256, l (ix2 p k) * r (ix2 k q) :=
  MatmulAt.matmul_zero_at dot_S1536x256_S256x128_S1536x128_1_0_0_1_n_n rfl rfl dotG_lhs0 dotG_lhs1 dotG_rhs0 dotG_rhs1 none l r p q

/-! ## The projected features and the 0/1 matrix, at one entry -/

/-- Row `n` of the batch's projected features `x · W_in` at feature `f`: the specification's `projRow`. -/
theorem proj_at (v0 : Vec Ideal S1x256x128 .f32) (v3 : Vec Ideal S128x128 .f32) (n : Fin 256) (f : Fin 128) :
    (truncf .bf16 (matmul dot_S256x128_S128x128_S256x128_1_0_0_1_n_n none
        (truncf .bf16 (shapeCast S256x128 v0 shapeCasts_S1x256x128_S256x128) bitsLt_bf16_f32 : FVec Ideal S256x128 .bf16)
        (truncf .bf16 v3 bitsLt_bf16_f32 : FVec Ideal S128x128 .bf16)
        (constant S256x128 .f32 0x00000000#32)) bitsLt_bf16_f32 : FVec Ideal S256x128 .bf16) (ix2 n f)
      = projRow (fun a f => v3 (ix2 a f)) (fun e => v0 (ix3 (0 : Fin 1) n e)) f := by
  rw [truncf_apply]
  refine (dotP_at _ _ n f).trans ?_
  unfold projRow
  refine Finset.sum_congr rfl fun k _ => ?_
  rw [truncf_apply, truncf_apply, shapeCast_1ab_ab_apply]

/-- A one-bit equality test, widened and converted: 1 where the words are equal, 0 elsewhere. -/
theorem onehot_word (w u : BitVec 32) :
    FloatOps.sitofp (F := Ideal) .f32 ((IntOp.cmpi .eq w u).setWidth 32) = if w = u then (1 : EReal) else 0 := by
  by_cases h : w = u
  · rw [if_pos h]
    have e : IntOp.cmpi .eq w u = 1#1 := by
      show BitVec.ofBool (w == u) = 1#1
      rw [beq_iff_eq.mpr h]; rfl
    rw [e]
    show (((BitVec.setWidth 32 1#1).toInt : ℝ) : EReal) = 1
    rw [show (BitVec.setWidth 32 1#1).toInt = 1 by decide, Int.cast_one, EReal.coe_one]
  · rw [if_neg h]
    have e : IntOp.cmpi .eq w u = 0#1 := by
      show BitVec.ofBool (w == u) = 0#1
      rw [beq_eq_false_iff_ne.mpr h]; rfl
    rw [e]
    show (((BitVec.setWidth 32 0#1).toInt : ℝ) : EReal) = 0
    rw [show (BitVec.setWidth 32 0#1).toInt = 0 by decide, Int.cast_zero, EReal.coe_zero]

/-- The 0/1 matrix at (row `r`, lane `k`): 1 where the row's index word is the lane number. -/
theorem onehot_at (v94 : IVec S1536x1 32) (r : Fin 1536) (k : Fin 256) :
    (truncf .bf16 (sitofp (F := Ideal) .f32 (extui 32 (cmpi .eq (broadcastTo S1536x256 v94 broadcasts_S1536x1_S1536x256)
        (iota .tc S1536x256 32 [1] iota_S1536x256_d1_w32)) natLt_1_32)) bitsLt_bf16_f32 : FVec Ideal S1536x256 .bf16) (ix2 r k)
      = if v94 (ix2 r (0 : Fin 1)) = BitVec.ofNat 32 k.val then (1 : EReal) else 0 := by
  rw [truncf_apply, sitofp_apply, extui_apply]
  have eb : broadcastTo S1536x256 v94 broadcasts_S1536x1_S1536x256 (ix2 r k) = v94 (ix2 r (0 : Fin 1)) :=
    broadcastTo_apply v94 _ (ix2 r k) (ix2 r (0 : Fin 1)) fun ax => by
      match ax with
      | ⟨0, _⟩ => show r.val = if (1536 : Nat) = 1 then 0 else r.val; rw [if_neg (by decide)]
      | ⟨1, _⟩ => show (0 : Nat) = if (1 : Nat) = 1 then 0 else k.val; rw [if_pos rfl]
  have ei : iota .tc S1536x256 32 [1] iota_S1536x256_d1_w32 (ix2 r k) = BitVec.ofNat 32 k.val :=
    iota_single_apply .tc S1536x256 32 1 _ (ix2 r k)
  show FloatOps.sitofp (F := Ideal) .f32 ((IntOp.cmpi .eq (broadcastTo S1536x256 v94 broadcasts_S1536x1_S1536x256 (ix2 r k))
      (iota .tc S1536x256 32 [1] iota_S1536x256_d1_w32 (ix2 r k))).setWidth 32) = _
  rw [eb, ei, onehot_word]

/-! ## The gather by the 0/1 matrix, and the chunk's aggregate -/

/-- A word below 256 is the 32-bit word of its own atom number, and of no other lane. -/
theorem word_eq_lane_iff {w : BitVec 32} (hw : w.toNat < 256) (k : Fin 256) : w = BitVec.ofNat 32 k.val ↔ k = atomOf w := by
  constructor
  · intro e
    refine Fin.ext ?_
    rw [atomOf_val_of_lt hw, e, BitVec.toNat_ofNat]
    have := k.isLt
    omega
  · intro e
    refine BitVec.eq_of_toNat_eq ?_
    rw [BitVec.toNat_ofNat, e, atomOf_val_of_lt hw]
    omega

/-- A row of the product of a 0/1 matrix with `y`, the row's one nonzero lane being the one its word `w` names: on the
    extended reals `0 · y = 0` and `1 · y = y` whatever `y` is, so the sum over the lanes is `y` at that lane. -/
theorem onehot_gather_at (oh : FVec Ideal S1536x256 .bf16) (y : FVec Ideal S256x128 .bf16) (w : BitVec 32) (hw : w.toNat < 256)
    (r : Fin 1536) (f : Fin 128)
    (hoh : ∀ k : Fin 256, oh (ix2 r k) = if w = BitVec.ofNat 32 k.val then (1 : EReal) else 0) :
    matmul dot_S1536x256_S256x128_S1536x128_1_0_0_1_n_n none oh y (constant S1536x128 .f32 0x00000000#32) (ix2 r f)
      = y (ix2 (atomOf w) f) := by
  refine (dotG_at oh y r f).trans ?_
  rw [Finset.sum_eq_single (atomOf w)]
  · rw [hoh, if_pos ((word_eq_lane_iff hw _).mpr rfl), one_mul]
  · intro k _ hk
    rw [hoh, if_neg (fun e => hk ((word_eq_lane_iff hw k).mp e)), zero_mul]
  · intro h
    exact absurd (Finset.mem_univ _) h

/-- A chunk's aggregate at atom `a`, feature `f`: the sum over the 48 slots of the neighbour's projected features
    (the row of `x · W_in` that the slot's index word names, the word being below 256) times the row's filter value. -/
theorem chunkAgg_at (v0 : Vec Ideal S1x256x128 .f32) (v3 : Vec Ideal S128x128 .f32) (v90 : FVec Ideal S1536x128 .f32)
    (v94 : IVec S1536x1 32) (hw : ∀ r : Fin 1536, (v94 (ix2 r (0 : Fin 1))).toNat < 256) (a : Fin 32) (f : Fin 128) :
    k0_pay6 (F := Ideal) v0 v3 v90 v94 (ix2 a f)
      = ∑ s : Fin 48, projRow (fun a f => v3 (ix2 a f))
          (fun e => v0 (ix3 (0 : Fin 1) (atomOf (v94 (ix2 (slotRow a s) (0 : Fin 1)))) e)) f * v90 (ix2 (slotRow a s) f) := by
  -- the last shape cast is the identity; the reduction over axis 1 is the sum over the 48 slots
  unfold k0_pay6
  refine (congrFun (shapeCast_self _ shapeCasts_S32x128_S32x128) (ix2 a f)).trans ?_
  refine (Ideal.multiReduction_add_single _ _ reduces_S32x48x128_S32x128 _ _ (ix2 a f)).trans ?_
  refine Finset.sum_congr rfl fun s _ => ?_
  -- slot `s` of atom `a` is row `48·a + s` of the 1536
  refine (shapeCast_apply _ shapeCasts_S1536x128_S32x48x128 _ (ix2 (slotRow a s) f) ?_).trans ?_
  · rw [Shape.rowMajor_val_two, Shape.rowMajor_val_three]
    show (48 * a.val + s.val) * 128 + f.val = (a.val * 48 + s.val) * 128 + f.val
    omega
  · rw [mulf_apply]
    refine congrArg (· * v90 (ix2 (slotRow a s) f)) ?_
    refine (onehot_gather_at _ _ (v94 (ix2 (slotRow a s) (0 : Fin 1))) (hw _) (slotRow a s) f (onehot_at v94 (slotRow a s))).trans ?_
    exact proj_at v0 v3 _ f

/-! ## The output stage -/

/-- The output layer's pre-activation at (n, a): row `n` of the aggregate through `W_out`, plus the bias. -/
theorem pay7_at (v15 : Vec Ideal S256x128 .f32) (v17 : Vec Ideal S128x128 .f32) (v20 : Vec Ideal S128 .f32)
    (n : Fin 256) (a : Fin 128) :
    k0_pay7 (F := Ideal) v15 v17 v20 (ix2 n a) = (∑ f : Fin 128, v15 (ix2 n f) * v17 (ix2 f a)) + v20 (ix1 a) := by
  unfold k0_pay7
  refine (addf_apply _ _ (ix2 n a)).trans ?_
  refine congrArg₂ (· + ·) ?_ ?_
  · refine (dotP_at _ _ n a).trans ?_
    refine Finset.sum_congr rfl fun k _ => ?_
    rw [truncf_apply, truncf_apply]
  · exact (broadcastTo_1b_ab_apply _ _ n a).trans (shapeCast_a_1a_apply _ _ (0 : Fin 1) a)

/-- The activation as the body computes it, at one element `y` of the pre-activation: the comparison `y ≠ y` is false on
    the extended reals, so the select takes the sum; `y − 0 = y`, `0 − |y| = −|y|` with `|y| = max y (−y)`. -/
theorem aggOut_ssp_word (y : EReal) :
    Scalar.select (Ideal.cmp .one (y - Ideal.ofBits .f32 0x00000000#32) (y - Ideal.ofBits .f32 0x00000000#32))
        (y + Ideal.ofBits .f32 0x00000000#32)
        (max y (Ideal.ofBits .f32 0x00000000#32)
          + Ideal.log1p (Ideal.exp (Ideal.ofBits .f32 0x00000000#32
              - max (y - Ideal.ofBits .f32 0x00000000#32) (-(y - Ideal.ofBits .f32 0x00000000#32)))))
      - Ideal.ofBits .f32 0x3F317218#32 = ssp y := by
  rw [Ideal.ofBits_zero_f32, sub_zero, zero_sub]
  have hc : Ideal.cmp .one y y = 0#1 := by
    show BitVec.ofBool (decide (y ≠ y)) = 0#1
    rw [decide_eq_false (fun h => h rfl)]
    rfl
  rw [hc, select_zero]
  rfl

/-- The body's activation at an index: the shifted softplus of the pre-activation there. -/
theorem aggOut_ssp_at (v15 : Vec Ideal S256x128 .f32) (v17 : Vec Ideal S128x128 .f32) (v20 : Vec Ideal S128 .f32) (i : S256x128.Idx) :
    subf (select (k0_pay10 (F := Ideal) v15 v17 v20) (k0_pay11 v15 v17 v20)
        (addf (k0_pay8 v15 v17 v20) (log1p (exp (k0_pay12 v15 v17 v20)))))
      (broadcast S256x128 (Scalar.ofBits (F := Ideal) .f32 0x3F317218#32)) i = ssp (k0_pay7 v15 v17 v20 i) :=
  aggOut_ssp_word (k0_pay7 v15 v17 v20 i)

/-- The stored block at atom `n`, feature `c`: the specification's `outRow` of row `n` of the aggregate `v15`. -/
theorem outRow_at (v15 : Vec Ideal S256x128 .f32) (v17 : Vec Ideal S128x128 .f32) (v20 : Vec Ideal S128 .f32)
    (v41 : Vec Ideal S128x128 .f32) (v44 : Vec Ideal S128 .f32) (n : Fin 256) (c : Fin 128) :
    k0_pay1 (F := Ideal) (k0_pay8 v15 v17 v20) (k0_pay10 v15 v17 v20) (k0_pay11 v15 v17 v20) (k0_pay12 v15 v17 v20) v41 v44
        (ix3 (0 : Fin 1) n c)
      = outRow (fun f a => v17 (ix2 f a)) (fun a => v20 (ix1 a)) (fun a c => v41 (ix2 a c)) (fun c => v44 (ix1 c))
          (fun f => v15 (ix2 n f)) c := by
  unfold k0_pay1
  refine (shapeCast_ab_1ab_apply _ shapeCasts_S256x128_S1x256x128 (0 : Fin 1) n c).trans ?_
  refine (addf_apply _ _ (ix2 n c)).trans ?_
  unfold outRow
  refine congrArg₂ (· + ·) ?_ ?_
  · refine (dotP_at _ _ n c).trans ?_
    refine Finset.sum_congr rfl fun a _ => ?_
    rw [truncf_apply, truncf_apply]
    refine congrArg (· * v41 (ix2 a c)) ?_
    exact (aggOut_ssp_at v15 v17 v20 (ix2 n a)).trans (congrArg ssp (pay7_at v15 v17 v20 n a))
  · exact (broadcastTo_1b_ab_apply _ _ n c).trans (shapeCast_a_1a_apply _ _ (0 : Fin 1) c)

end Cert.FilterConv

end
-- ==== Proof.KernelPoint.lean ====
/-
  What the kernel's body leaves in its output block, entry by entry: the specification's `out` of the point's input blocks.

  The body stores ONE piece, the whole block, so the block reads that piece's payload. The payload is the output stage
  (`outRow`) of the aggregate loaded from the scratch after the loop; row `n` of the scratch is the block stored by trip
  `n / 32` at its row `n % 32`; that block is the chunk's aggregate of the loads at chunk `n / 32`, whose row `a` is atom
  `32·(n/32) + a = n` of the batch. A load through a whole buffer at zero offsets reads the buffer's contents, and a load of
  chunk `k` reads the rows `32·k + a`. The index words of the point's block are below 256 (hypothesis), so every gather
  by the 0/1 matrix is the row its word names.
-/
import proofs.«417244_j30623116820559_3_alg».proof.Proof.FrameIdeal
import proofs.«417244_j30623116820559_3_alg».proof.Proof.KernelLoop
import proofs.«417244_j30623116820559_3_alg».proof.Proof.KernelBodyFilter
import proofs.«417244_j30623116820559_3_alg».proof.Proof.KernelBodyAgg
import proofs.«417244_j30623116820559_3_alg».proof.Proof.Spec
import Idealize.ShloMosaic.Lib.Pipeline.Value
import Idealize.ShloMosaic.Lib.ValueIdx

set_option maxRecDepth 16384

noncomputable section

namespace Cert.FilterConv

open Idealize.ShloMosaic Idealize.ShloMosaic.ValueIdx Idealize.ShloMosaic.TcCoe Cert.KernelIdeal Cert.KernelIdeal.Gen
  Cert.KernelIdeal.GenP

/-- A load through a whole buffer's rectangle at zero offsets reads the buffer's contents. -/
theorem load_whole {F : FTy → Type} [FloatOps F] {S : Shape} {e : EltTy} (a : Memref sig .tc .vmem S e) (h : a.IsWhole)
    (x : Vec F S e) {off : Fin S.rank → ℕ} (hz : off = fun _ => 0) (inb : ∀ a, off a + S.size a ≤ S.size a) :
    View.readAt (Elt F) a.view (Rect.unit (s := S) off S.size inb).toLoadRect (h.unread x) = x := by
  rw [View.readAt_eq_ld, h.read_unread, View.ld_unit_zero hz]

section ChunkLoads
variable {F : FTy → Type} [FloatOps F]

/-- A load of chunk `k` of the radial basis block reads atom `32·k + a` of the batch. -/
theorem chunk_load_dist (arg2 : Memref sig .tc .vmem S1x256x48x50 .f32) (harg2 : arg2.IsWhole) (x1 : Vec F S1x256x48x50 .f32)
    (k : Fin k0_t1_loop.trips) (a : Fin 32) (s : Fin 48) (e : Fin 50) (h : 32 * k.val + a.val < 256) :
    View.readAt (Elt F) arg2.view (Rect.unit (s := S1x256x48x50) (k0_off1 k) S1x32x48x50.size (k0_off1_inb k)).toLoadRect
        (harg2.unread x1) (ix4 (0 : Fin 1) a s e)
      = x1 (ix4 (0 : Fin 1) ⟨32 * k.val + a.val, h⟩ s e) := by
  rw [View.readAt_eq_ld, harg2.read_unread]
  show x1 _ = x1 _
  congr 1
  funext d
  refine Fin.ext ?_
  have eo := k0_off1_eq k
  show (k0_off1 k) d + 1 * ((ix4 (0 : Fin 1) a s e) d).val = ((ix4 (0 : Fin 1) (⟨32 * k.val + a.val, h⟩ : Fin 256) s e) d).val
  rw [eo]
  match d with
  | ⟨0, _⟩ => rfl
  | ⟨1, _⟩ => show 32 * k.val + 1 * a.val = 32 * k.val + a.val; omega
  | ⟨2, _⟩ => show 0 + 1 * s.val = s.val; omega
  | ⟨3, _⟩ => show 0 + 1 * e.val = e.val; omega

/-- A load of chunk `k` of a 256 × 48 block (the mask, or the index words) reads atom `32·k + a` of the batch. -/
theorem chunk_load_slot {el : EltTy} (arg : Memref sig .tc .vmem S1x256x48 el) (harg : arg.IsWhole) (x : Vec F S1x256x48 el)
    (k : Fin k0_t1_loop.trips) (a : Fin 32) (s : Fin 48) (h : 32 * k.val + a.val < 256) :
    View.readAt (Elt F) arg.view (Rect.unit (s := S1x256x48) (k0_off2 k) S1x32x48.size (k0_off2_inb k)).toLoadRect
        (harg.unread x) (ix3 (0 : Fin 1) a s)
      = x (ix3 (0 : Fin 1) ⟨32 * k.val + a.val, h⟩ s) := by
  rw [View.readAt_eq_ld, harg.read_unread]
  show x _ = x _
  congr 1
  funext d
  refine Fin.ext ?_
  have eo := k0_off2_eq k
  show (k0_off2 k) d + 1 * ((ix3 (0 : Fin 1) a s) d).val = ((ix3 (0 : Fin 1) (⟨32 * k.val + a.val, h⟩ : Fin 256) s) d).val
  rw [eo]
  match d with
  | ⟨0, _⟩ => rfl
  | ⟨1, _⟩ => show 32 * k.val + 1 * a.val = 32 * k.val + a.val; omega
  | ⟨2, _⟩ => show 0 + 1 * s.val = s.val; omega

end ChunkLoads

section Chunk
variable (arg2 : Memref sig .tc .vmem S1x256x48x50 .f32) (harg2 : arg2.IsWhole) (arg3 : Memref sig .tc .vmem S1x256x48 .f32)
  (harg3 : arg3.IsWhole) (arg4 : Memref sig .tc .vmem S1x256x48 .i32) (harg4 : arg4.IsWhole)
  (x0 : Vec Ideal S1x256x128 .f32) (x1 : Vec Ideal S1x256x48x50 .f32) (x2 : Vec Ideal S1x256x48 .f32)
  (x3 : Vec Ideal S1x256x48 .i32) (x4 : Vec Ideal S50x128 .f32) (x5 : Vec Ideal S128 .f32) (x6 : Vec Ideal S128x128 .f32)
  (x7 : Vec Ideal S128 .f32) (x8 : Vec Ideal S128x128 .f32)

/-- The block trip `k` stores, at its row `a` and column `f`: the specification's aggregate of atom `32·k + a` of the batch,
    from the point's input blocks, the block's index words being below 256. -/
theorem chunkStore_at (hx3 : ∀ y : S1x256x48.Idx, (x3 y).toNat < 256) (k : Fin k0_t1_loop.trips) (a : Fin 32) (f : Fin 128)
    (h : 32 * k.val + a.val < 256) :
    chunkStore (F := Ideal) arg2 arg3 arg4 x0 x8 x4 x6 x5 x7 (harg2.unread x1) (harg3.unread x2) (harg4.unread x3) k (ix2 a f)
      = aggRow (fun kk g => x4 (ix2 kk g)) (fun g => x5 (ix1 g)) (fun g f => x6 (ix2 g f)) (fun f => x7 (ix1 f))
          (fun e f => x8 (ix2 e f)) (fun n e => x0 (ix3 (0 : Fin 1) n e))
          (fun s => x2 (ix3 (0 : Fin 1) ⟨32 * k.val + a.val, h⟩ s)) (fun s => x3 (ix3 (0 : Fin 1) ⟨32 * k.val + a.val, h⟩ s))
          (fun s kk => x1 (ix4 (0 : Fin 1) ⟨32 * k.val + a.val, h⟩ s kk)) f := by
  have hk : k.val < 8 := Nat.lt_of_lt_of_le k.isLt (le_of_eq trips_eq)
  unfold chunkStore
  rw [chunkAgg_at _ _ _ _ (fun r => by
    have hr : r = slotRow ⟨r.val / 48, by have := r.isLt; omega⟩ ⟨r.val % 48, Nat.mod_lt _ (by decide)⟩ :=
      Fin.ext (by rw [slotRow_val]; show r.val = 48 * (r.val / 48) + r.val % 48; omega)
    rw [hr, wordRow_at, chunk_load_slot arg4 harg4 x3 k _ _ (by show 32 * k.val + r.val / 48 < 256; have := r.isLt; omega)]
    exact hx3 _) a f]
  unfold aggRow
  refine Finset.sum_congr rfl fun s _ => ?_
  rw [wordRow_at, filterRow_at, chunk_load_slot arg4 harg4 x3 k a s h, chunk_load_slot arg3 harg3 x2 k a s h]
  have ed : (fun e : Fin 50 => View.readAt (Elt Ideal) arg2.view
        (Rect.unit (s := S1x256x48x50) (k0_off1 k) S1x32x48x50.size (k0_off1_inb k)).toLoadRect (harg2.unread x1)
        (ix4 (0 : Fin 1) a s e))
      = fun e => x1 (ix4 (0 : Fin 1) ⟨32 * k.val + a.val, h⟩ s e) :=
    funext fun e => chunk_load_dist arg2 harg2 x1 k a s e h
  rw [ed]
  rfl

end Chunk

section Point

/-- The aggregate loaded after the loop, at row `n`, column `q`: the block of trip `n / 32` at its row `n % 32`. -/
theorem scratch_load_at {F : FTy → Type} [FloatOps F] (𝒱 : Variants) (c : Dev nD) (bd : Option 𝒱.V) (i : grid0.Coords) (arg1 : Memref sig .tc .vmem S1x256x128 .f32) (harg1 : arg1.IsWhole) (arg2 : Memref sig .tc .vmem S1x256x48x50 .f32) (harg2 : arg2.IsWhole) (arg3 : Memref sig .tc .vmem S1x256x48 .f32) (harg3 : arg3.IsWhole) (arg4 : Memref sig .tc .vmem S1x256x48 .i32) (harg4 : arg4.IsWhole) (arg5 : Memref sig .tc .vmem S50x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128x128 .f32) (harg12 : arg12.IsWhole) (arg13 : Memref sig .tc .vmem S128 .f32) (harg13 : arg13.IsWhole) (arg14 : Memref sig .tc .vmem S1x256x128 .f32) (harg14 : arg14.IsWhole) (arg15 : Memref sig .tc .vmem S256x128 .f32) (harg15 : arg15.IsWhole) (v0 : Vec F S1x256x128 .f32) (v3 : Vec F S128x128 .f32) (v7 : Vec F S50x128 .f32) (v9 : Vec F S128x128 .f32) (v11 : Vec F S128 .f32) (v12 : Vec F S128 .f32) (X_arg2 : BufTy.Contents (Elt F) arg2.view.ty) (X_arg3 : BufTy.Contents (Elt F) arg3.view.ty) (X_arg4 : BufTy.Contents (Elt F) arg4.view.ty)
    (N : ℕ) (f₀ : BufTy.Contents (Elt F) arg15.view.ty)
    (inb : ∀ a, (![0, 0] : Fin 2 → ℕ) a + S256x128.size a ≤ S256x128.size a) (hN : N = k0_t1_loop.trips)
    (n : Fin 256) (q : Fin 128) :
    View.readAt (Elt F) arg15.view (Rect.unit (s := S256x128) ![0, 0] S256x128.size inb).toLoadRect
        (arg15.view.writes (Elt F) f₀ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v3 v7 v9 v11 v12 X_arg2 X_arg3 X_arg4 N)) (ix2 n q)
      = chunkStore (F := F) arg2 arg3 arg4 v0 v3 v7 v9 v11 v12 X_arg2 X_arg3 X_arg4 ⟨n.val / 32, by rw [trips_eq]; omega⟩
          (ix2 ⟨n.val % 32, Nat.mod_lt _ (by decide)⟩ q) := by
  subst hN
  have hz : (![0, 0] : Fin 2 → ℕ) = fun _ => 0 := funext fun a => by match a with | ⟨0, _⟩ => rfl | ⟨1, _⟩ => rfl
  exact (congrFun ((View.readAt_eq_ld arg15.view _ _).trans (View.ld_unit_zero (S := S256x128) hz inb _)) (ix2 n q)).trans
    (scratch_read (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v3 v7 v9 v11 v12 X_arg2 X_arg3 X_arg4 f₀ n q)

/-- THE BLOCK A POINT LEAVES, entry `(n, q)`: the specification's `out` of the point's input blocks, when the block's
    index words are below 256. -/
theorem point_at (c : Dev nD) (i : grid0.Coords) (arg1 : Memref sig .tc .vmem S1x256x128 .f32) (harg1 : arg1.IsWhole) (arg2 : Memref sig .tc .vmem S1x256x48x50 .f32) (harg2 : arg2.IsWhole) (arg3 : Memref sig .tc .vmem S1x256x48 .f32) (harg3 : arg3.IsWhole) (arg4 : Memref sig .tc .vmem S1x256x48 .i32) (harg4 : arg4.IsWhole) (arg5 : Memref sig .tc .vmem S50x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128x128 .f32) (harg12 : arg12.IsWhole) (arg13 : Memref sig .tc .vmem S128 .f32) (harg13 : arg13.IsWhole) (arg14 : Memref sig .tc .vmem S1x256x128 .f32) (harg14 : arg14.IsWhole) (arg15 : Memref sig .tc .vmem S256x128 .f32) (harg15 : arg15.IsWhole) (x0 : Vec Ideal S1x256x128 .f32) (x1 : Vec Ideal S1x256x48x50 .f32) (x2 : Vec Ideal S1x256x48 .f32) (x3 : Vec Ideal S1x256x48 .i32) (x4 : Vec Ideal S50x128 .f32) (x5 : Vec Ideal S128 .f32) (x6 : Vec Ideal S128x128 .f32) (x7 : Vec Ideal S128 .f32) (x8 : Vec Ideal S128x128 .f32) (x9 : Vec Ideal S128x128 .f32) (x10 : Vec Ideal S128 .f32) (x11 : Vec Ideal S128x128 .f32) (x12 : Vec Ideal S128 .f32)
    (hx3 : ∀ y : S1x256x48.Idx, (x3 y).toNat < 256) (n : Fin 256) (q : Fin 128) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 (ix3 (0 : Fin 1) n q)
      = out (fun kk g => x4 (ix2 kk g)) (fun g => x5 (ix1 g)) (fun g f => x6 (ix2 g f)) (fun f => x7 (ix1 f))
          (fun e f => x8 (ix2 e f)) (fun f a => x9 (ix2 f a)) (fun a => x10 (ix1 a)) (fun a c => x11 (ix2 a c))
          (fun c => x12 (ix1 c)) (fun n e => x0 (ix3 (0 : Fin 1) n e)) (fun n s => x2 (ix3 (0 : Fin 1) n s))
          (fun n s => x3 (ix3 (0 : Fin 1) n s)) (fun n s kk => x1 (ix4 (0 : Fin 1) n s kk)) n q := by
  have hz3 : (![0, 0, 0] : Fin 3 → ℕ) = fun _ => 0 :=
    funext fun a => by match a with | ⟨0, _⟩ => rfl | ⟨1, _⟩ => rfl | ⟨2, _⟩ => rfl
  have hz2 : (![0, 0] : Fin 2 → ℕ) = fun _ => 0 := funext fun a => by match a with | ⟨0, _⟩ => rfl | ⟨1, _⟩ => rfl
  have hz1 : (![0] : Fin 1 → ℕ) = fun _ => 0 := funext fun a => by match a with | ⟨0, _⟩ => rfl
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12)]
  unfold kernelRun0_A
  dsimp only
  rw [View.canon_unit_zero hz3]
  rw [outRow_at]
  rw [load_whole arg10 harg10 x9 hz2, load_whole arg11 harg11 x10 hz1, load_whole arg12 harg12 x11 hz2,
    load_whole arg13 harg13 x12 hz1, load_whole arg1 harg1 x0 hz3, load_whole arg9 harg9 x8 hz2,
    load_whole arg5 harg5 x4 hz2, load_whole arg7 harg7 x6 hz2, load_whole arg6 harg6 x5 hz1, load_whole arg8 harg8 x7 hz1]
  unfold out
  refine congrArg (fun g => outRow _ _ _ _ g q) (funext fun f => ?_)
  have h : 32 * (n.val / 32) + n.val % 32 < 256 := by have := n.isLt; omega
  refine (scratch_load_at (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x8 x4 x6 x5 x7 (harg2.unread x1) (harg3.unread x2) (harg4.unread x3) _ _ _ rfl n f).trans ?_
  rw [chunkStore_at arg2 harg2 arg3 harg3 arg4 harg4 x0 x1 x2 x3 x4 x5 x6 x7 x8 hx3
    ⟨n.val / 32, by rw [trips_eq]; have := n.isLt; omega⟩ ⟨n.val % 32, Nat.mod_lt _ (by decide)⟩ f h]
  have hn : (⟨32 * (n.val / 32) + n.val % 32, h⟩ : Fin 256) = n :=
    Fin.ext (by show 32 * (n.val / 32) + n.val % 32 = n.val; omega)
  rw [hn]

end Point

end Cert.FilterConv

end
-- ==== Proof.KernelValue.lean ====
/-
  The kernel's result array: the specification's `result` of the argument arrays.

  The grid has one point per batch. Point `t` stages batch `t` of the four batched arguments (block index `(t, 0, …)`) and the
  whole of each weight and bias (block index 0), so each input block read at local coordinates is the argument array read
  at batch `t`; what the point writes back is, entry by entry, the specification's `out` of those blocks, that is the
  specification's `result` at `(t, n, c)`; and the 32 blocks `(t, ·, ·)` cover the output array.
-/
import proofs.«417244_j30623116820559_3_alg».proof.Proof.ValueIdeal
import proofs.«417244_j30623116820559_3_alg».proof.Proof.KernelPoint
import proofs.«417244_j30623116820559_3_alg».proof.Proof.Spec
import Idealize.ShloMosaic.Lib.Pipeline.Value
import Idealize.ShloMosaic.Lib.ValueIdx

set_option maxRecDepth 16384

noncomputable section

namespace Cert.FilterConv

open Idealize.ShloMosaic Idealize.ShloMosaic.ValueIdx Idealize.ShloMosaic.TcCoe Idealize.SL.Sem Cert.KernelIdeal Cert.KernelIdeal.Gen
  Cert.KernelIdeal.GenP Cert.KernelIdeal.ValueP
open Idealize.ShloMosaic.Pipeline (Dat)

variable (m : (ℓ : Loc nD τ sig) → Buf (Elt Ideal) ℓ) (ρ : Dev nD → PrngReg)

theorem point_lt (t : Fin cfg0.N) : t.val < 32 := t.isLt

/-- The printed index maps, decided over the 32 grid points: the batched windows sit at block `(t, 0, …)`, the others at 0. -/
theorem idx_w0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx_w1 : ∀ t : Fin cfg0.N, win0_1.index t (0 : Fin 4) = t.val ∧ win0_1.index t (1 : Fin 4) = 0 ∧ win0_1.index t (2 : Fin 4) = 0 ∧ win0_1.index t (3 : Fin 4) = 0 :=
  (by decide +kernel : ∀ t : Fin grid0.N, _)
theorem idx_w2 : ∀ t : Fin cfg0.N, win0_2.index t (0 : Fin 3) = t.val ∧ win0_2.index t (1 : Fin 3) = 0 ∧ win0_2.index t (2 : Fin 3) = 0 :=
  (by decide +kernel : ∀ t : Fin grid0.N, _)
theorem idx_w3 : ∀ t : Fin cfg0.N, win0_3.index t (0 : Fin 3) = t.val ∧ win0_3.index t (1 : Fin 3) = 0 ∧ win0_3.index t (2 : Fin 3) = 0 :=
  (by decide +kernel : ∀ t : Fin grid0.N, _)
theorem idx_w4 : ∀ t : Fin cfg0.N, win0_4.index t (0 : Fin 2) = 0 ∧ win0_4.index t (1 : Fin 2) = 0 :=
  (by decide +kernel : ∀ t : Fin grid0.N, _)
theorem idx_w5 : ∀ t : Fin cfg0.N, win0_5.index t (0 : Fin 1) = 0 :=
  (by decide +kernel : ∀ t : Fin grid0.N, _)
theorem idx_w6 : ∀ t : Fin cfg0.N, win0_6.index t (0 : Fin 2) = 0 ∧ win0_6.index t (1 : Fin 2) = 0 :=
  (by decide +kernel : ∀ t : Fin grid0.N, _)
theorem idx_w7 : ∀ t : Fin cfg0.N, win0_7.index t (0 : Fin 1) = 0 :=
  (by decide +kernel : ∀ t : Fin grid0.N, _)
theorem idx_w8 : ∀ t : Fin cfg0.N, win0_8.index t (0 : Fin 2) = 0 ∧ win0_8.index t (1 : Fin 2) = 0 :=
  (by decide +kernel : ∀ t : Fin grid0.N, _)
theorem idx_w9 : ∀ t : Fin cfg0.N, win0_9.index t (0 : Fin 2) = 0 ∧ win0_9.index t (1 : Fin 2) = 0 :=
  (by decide +kernel : ∀ t : Fin grid0.N, _)
theorem idx_w10 : ∀ t : Fin cfg0.N, win0_10.index t (0 : Fin 1) = 0 :=
  (by decide +kernel : ∀ t : Fin grid0.N, _)
theorem idx_w11 : ∀ t : Fin cfg0.N, win0_11.index t (0 : Fin 2) = 0 ∧ win0_11.index t (1 : Fin 2) = 0 :=
  (by decide +kernel : ∀ t : Fin grid0.N, _)
theorem idx_w12 : ∀ t : Fin cfg0.N, win0_12.index t (0 : Fin 1) = 0 :=
  (by decide +kernel : ∀ t : Fin grid0.N, _)
theorem idx_w13 : ∀ t : Fin cfg0.N, win0_13.index t (0 : Fin 3) = t.val ∧ win0_13.index t (1 : Fin 3) = 0 ∧ win0_13.index t (2 : Fin 3) = 0 :=
  (by decide +kernel : ∀ t : Fin grid0.N, _)

/-! ## Each input block, read at local coordinates, is its argument array read at batch `t` (a block's coordinate is the
    block index times the block size plus the coordinate inside the block) -/

theorem blk_w0 (c : Dev nD) (t : Fin cfg0.N) (q : Fin 256) (r : Fin 128) :
    iblk m c 0 t (ix3 (0 : Fin 1) q r) = V m c main_arg0 (ix3 (⟨t.val, point_lt t⟩ : Fin 32) q r) := by
  obtain ⟨f0, f1, f2⟩ := idx_w0 t
  show V m c main_arg0 (((cfg0.win 0).blk t).view.emb (ix3 (0 : Fin 1) q r)) = _
  congr 1
  funext a
  refine Fin.ext ?_
  match a with
    | ⟨0, _⟩ => show win0_0.index t (0 : Fin 3) * 1 + 1 * 0 = t.val; rw [f0]; omega
    | ⟨1, _⟩ => show win0_0.index t (1 : Fin 3) * 256 + 1 * q.val = q.val; rw [f1]; omega
    | ⟨2, _⟩ => show win0_0.index t (2 : Fin 3) * 128 + 1 * r.val = r.val; rw [f2]; omega

theorem blk_w1 (c : Dev nD) (t : Fin cfg0.N) (q : Fin 256) (r : Fin 48) (s : Fin 50) :
    iblk m c 1 t (ix4 (0 : Fin 1) q r s) = V m c main_arg3 (ix4 (⟨t.val, point_lt t⟩ : Fin 32) q r s) := by
  obtain ⟨f0, f1, f2, f3⟩ := idx_w1 t
  show V m c main_arg3 (((cfg0.win 1).blk t).view.emb (ix4 (0 : Fin 1) q r s)) = _
  congr 1
  funext a
  refine Fin.ext ?_
  match a with
    | ⟨0, _⟩ => show win0_1.index t (0 : Fin 4) * 1 + 1 * 0 = t.val; rw [f0]; omega
    | ⟨1, _⟩ => show win0_1.index t (1 : Fin 4) * 256 + 1 * q.val = q.val; rw [f1]; omega
    | ⟨2, _⟩ => show win0_1.index t (2 : Fin 4) * 48 + 1 * r.val = r.val; rw [f2]; omega
    | ⟨3, _⟩ => show win0_1.index t (3 : Fin 4) * 50 + 1 * s.val = s.val; rw [f3]; omega

theorem blk_w2 (c : Dev nD) (t : Fin cfg0.N) (q : Fin 256) (r : Fin 48) :
    iblk m c 2 t (ix3 (0 : Fin 1) q r) = V m c main_arg1 (ix3 (⟨t.val, point_lt t⟩ : Fin 32) q r) := by
  obtain ⟨f0, f1, f2⟩ := idx_w2 t
  show V m c main_arg1 (((cfg0.win 2).blk t).view.emb (ix3 (0 : Fin 1) q r)) = _
  congr 1
  funext a
  refine Fin.ext ?_
  match a with
    | ⟨0, _⟩ => show win0_2.index t (0 : Fin 3) * 1 + 1 * 0 = t.val; rw [f0]; omega
    | ⟨1, _⟩ => show win0_2.index t (1 : Fin 3) * 256 + 1 * q.val = q.val; rw [f1]; omega
    | ⟨2, _⟩ => show win0_2.index t (2 : Fin 3) * 48 + 1 * r.val = r.val; rw [f2]; omega

theorem blk_w3 (c : Dev nD) (t : Fin cfg0.N) (q : Fin 256) (r : Fin 48) :
    iblk m c 3 t (ix3 (0 : Fin 1) q r) = V m c main_arg2 (ix3 (⟨t.val, point_lt t⟩ : Fin 32) q r) := by
  obtain ⟨f0, f1, f2⟩ := idx_w3 t
  show V m c main_arg2 (((cfg0.win 3).blk t).view.emb (ix3 (0 : Fin 1) q r)) = _
  congr 1
  funext a
  refine Fin.ext ?_
  match a with
    | ⟨0, _⟩ => show win0_3.index t (0 : Fin 3) * 1 + 1 * 0 = t.val; rw [f0]; omega
    | ⟨1, _⟩ => show win0_3.index t (1 : Fin 3) * 256 + 1 * q.val = q.val; rw [f1]; omega
    | ⟨2, _⟩ => show win0_3.index t (2 : Fin 3) * 48 + 1 * r.val = r.val; rw [f2]; omega

theorem blk_w4 (c : Dev nD) (t : Fin cfg0.N) (p : Fin 50) (q : Fin 128) :
    iblk m c 4 t (ix2 p q) = V m c main_arg4 (ix2 p q) := by
  obtain ⟨f0, f1⟩ := idx_w4 t
  show V m c main_arg4 (((cfg0.win 4).blk t).view.emb (ix2 p q)) = _
  congr 1
  funext a
  refine Fin.ext ?_
  match a with
    | ⟨0, _⟩ => show win0_4.index t (0 : Fin 2) * 50 + 1 * p.val = p.val; rw [f0]; omega
    | ⟨1, _⟩ => show win0_4.index t (1 : Fin 2) * 128 + 1 * q.val = q.val; rw [f1]; omega

theorem blk_w5 (c : Dev nD) (t : Fin cfg0.N) (p : Fin 128) :
    iblk m c 5 t (ix1 p) = V m c main_arg5 (ix1 p) := by
  have f0 := idx_w5 t
  show V m c main_arg5 (((cfg0.win 5).blk t).view.emb (ix1 p)) = _
  congr 1
  funext a
  refine Fin.ext ?_
  match a with
    | ⟨0, _⟩ => show win0_5.index t (0 : Fin 1) * 128 + 1 * p.val = p.val; rw [f0]; omega

theorem blk_w6 (c : Dev nD) (t : Fin cfg0.N) (p : Fin 128) (q : Fin 128) :
    iblk m c 6 t (ix2 p q) = V m c main_arg6 (ix2 p q) := by
  obtain ⟨f0, f1⟩ := idx_w6 t
  show V m c main_arg6 (((cfg0.win 6).blk t).view.emb (ix2 p q)) = _
  congr 1
  funext a
  refine Fin.ext ?_
  match a with
    | ⟨0, _⟩ => show win0_6.index t (0 : Fin 2) * 128 + 1 * p.val = p.val; rw [f0]; omega
    | ⟨1, _⟩ => show win0_6.index t (1 : Fin 2) * 128 + 1 * q.val = q.val; rw [f1]; omega

theorem blk_w7 (c : Dev nD) (t : Fin cfg0.N) (p : Fin 128) :
    iblk m c 7 t (ix1 p) = V m c main_arg7 (ix1 p) := by
  have f0 := idx_w7 t
  show V m c main_arg7 (((cfg0.win 7).blk t).view.emb (ix1 p)) = _
  congr 1
  funext a
  refine Fin.ext ?_
  match a with
    | ⟨0, _⟩ => show win0_7.index t (0 : Fin 1) * 128 + 1 * p.val = p.val; rw [f0]; omega

theorem blk_w8 (c : Dev nD) (t : Fin cfg0.N) (p : Fin 128) (q : Fin 128) :
    iblk m c 8 t (ix2 p q) = V m c main_arg8 (ix2 p q) := by
  obtain ⟨f0, f1⟩ := idx_w8 t
  show V m c main_arg8 (((cfg0.win 8).blk t).view.emb (ix2 p q)) = _
  congr 1
  funext a
  refine Fin.ext ?_
  match a with
    | ⟨0, _⟩ => show win0_8.index t (0 : Fin 2) * 128 + 1 * p.val = p.val; rw [f0]; omega
    | ⟨1, _⟩ => show win0_8.index t (1 : Fin 2) * 128 + 1 * q.val = q.val; rw [f1]; omega

theorem blk_w9 (c : Dev nD) (t : Fin cfg0.N) (p : Fin 128) (q : Fin 128) :
    iblk m c 9 t (ix2 p q) = V m c main_arg9 (ix2 p q) := by
  obtain ⟨f0, f1⟩ := idx_w9 t
  show V m c main_arg9 (((cfg0.win 9).blk t).view.emb (ix2 p q)) = _
  congr 1
  funext a
  refine Fin.ext ?_
  match a with
    | ⟨0, _⟩ => show win0_9.index t (0 : Fin 2) * 128 + 1 * p.val = p.val; rw [f0]; omega
    | ⟨1, _⟩ => show win0_9.index t (1 : Fin 2) * 128 + 1 * q.val = q.val; rw [f1]; omega

theorem blk_w10 (c : Dev nD) (t : Fin cfg0.N) (p : Fin 128) :
    iblk m c 10 t (ix1 p) = V m c main_arg10 (ix1 p) := by
  have f0 := idx_w10 t
  show V m c main_arg10 (((cfg0.win 10).blk t).view.emb (ix1 p)) = _
  congr 1
  funext a
  refine Fin.ext ?_
  match a with
    | ⟨0, _⟩ => show win0_10.index t (0 : Fin 1) * 128 + 1 * p.val = p.val; rw [f0]; omega

theorem blk_w11 (c : Dev nD) (t : Fin cfg0.N) (p : Fin 128) (q : Fin 128) :
    iblk m c 11 t (ix2 p q) = V m c main_arg11 (ix2 p q) := by
  obtain ⟨f0, f1⟩ := idx_w11 t
  show V m c main_arg11 (((cfg0.win 11).blk t).view.emb (ix2 p q)) = _
  congr 1
  funext a
  refine Fin.ext ?_
  match a with
    | ⟨0, _⟩ => show win0_11.index t (0 : Fin 2) * 128 + 1 * p.val = p.val; rw [f0]; omega
    | ⟨1, _⟩ => show win0_11.index t (1 : Fin 2) * 128 + 1 * q.val = q.val; rw [f1]; omega

theorem blk_w12 (c : Dev nD) (t : Fin cfg0.N) (p : Fin 128) :
    iblk m c 12 t (ix1 p) = V m c main_arg12 (ix1 p) := by
  have f0 := idx_w12 t
  show V m c main_arg12 (((cfg0.win 12).blk t).view.emb (ix1 p)) = _
  congr 1
  funext a
  refine Fin.ext ?_
  match a with
    | ⟨0, _⟩ => show win0_12.index t (0 : Fin 1) * 128 + 1 * p.val = p.val; rw [f0]; omega

/-- The kernel's result array: the specification's `result` of the argument arrays as launched. -/
def kernelResult (c : Dev nD) : S32x256x128.Idx → EReal :=
  result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

/-- Entry `(0, n, q)` of point `t`'s output block is entry `(t, n, q)` of the array. -/
theorem out_emb (t : Fin cfg0.N) (n : Fin 256) (q : Fin 128) :
    ((cfg0.win 13).blk t).view.emb (ix3 (0 : Fin 1) n q) = ix3 (⟨t.val, point_lt t⟩ : Fin 32) n q := by
  obtain ⟨f0, f1, f2⟩ := idx_w13 t
  funext a
  refine Fin.ext ?_
  match a with
  | ⟨0, _⟩ => show win0_13.index t (0 : Fin 3) * 1 + 1 * 0 = t.val; rw [f0]; omega
  | ⟨1, _⟩ => show win0_13.index t (1 : Fin 3) * 256 + 1 * n.val = n.val; rw [f1]; omega
  | ⟨2, _⟩ => show win0_13.index t (2 : Fin 3) * 128 + 1 * q.val = q.val; rw [f2]; omega

/-- WHAT POINT `t` WRITES BACK is block `t` of the specification's result, when every neighbour-index word is below 256. -/
theorem flushed_eq (c : Dev nD) (hr : ∀ j : S32x256x48.Idx, (m ((c : Thread nD τ).loc main_arg2) j).toNat < 256)
    (t : Fin cfg0.N) :
    (dats m 0 c).flushed 13 t = ((cfg0.win 13).blk t).view.read (Elt Ideal) (kernelResult m c) := by
  rw [flushed13_A]
  funext j
  obtain ⟨z, n, q, rfl⟩ : ∃ (z : Fin 1) (n : Fin 256) (q : Fin 128), j = ix3 z n q := ⟨j 0, j 1, j 2, eq_ix3 j⟩
  obtain rfl : z = 0 := Subsingleton.elim _ _
  show out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 (0 : Fin 1) n q)
    = kernelResult m c (((cfg0.win 13).blk t).view.emb (ix3 (0 : Fin 1) n q))
  rw [out_emb]
  refine (point_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (fun y => hr _) n q).trans ?_
  simp only [blk_w0 m c t, blk_w1 m c t, blk_w2 m c t, blk_w3 m c t, blk_w4 m c t, blk_w5 m c t, blk_w6 m c t, blk_w7 m c t, blk_w8 m c t, blk_w9 m c t, blk_w10 m c t, blk_w11 m c t, blk_w12 m c t]
  rfl

/-- Every index `(b, n, q)` of the output array lies in the block of point `b`. -/
theorem cover (i : S32x256x128.Idx) :
    ∃ t : Fin cfg0.N, (cfg0.win 13).flush t = true ∧ i ∈ ((cfg0.win 13).blk t).view.set := by
  obtain ⟨b, n, q, rfl⟩ : ∃ (b : Fin 32) (n : Fin 256) (q : Fin 128), i = ix3 b n q := ⟨i 0, i 1, i 2, eq_ix3 i⟩
  refine ⟨⟨b.val, b.isLt⟩, flush0_13 _, ?_⟩
  have h := ((cfg0.win 13).blk (⟨b.val, b.isLt⟩ : Fin cfg0.N)).view.emb_mem_set (ix3 (0 : Fin 1) n q)
  rw [out_emb] at h
  exact h

/-- THE OUTPUT ARRAY after the run is the specification's result of the arguments. -/
theorem final (c : Dev nD) (hr : ∀ j : S32x256x48.Idx, (m ((c : Thread nD τ).loc main_arg2) j).toNat < 256) :
    (dats m 0 c).arrAt 13 cfg0.N = kernelResult m c :=
  (dats m 0 c).arrAt_eq_of_cover 13 (kernelResult m c) (fun t _ => flushed_eq m c hr t) cover

/-- The kernel's run, re-posted: the result array at the specification's result of the arguments, the arguments unchanged. -/
theorem kernel_run (hr : ∀ (c : Dev nD) (j : S32x256x48.Idx), (m ((c : Thread nD τ).loc main_arg2) j).toNat < 256) :
    θ_run defs (onTc (τ := τ) (main (F := Ideal))) ⟨m, fun _ => 0, ρ⟩ fun r => ∀ c : Dev nD,
      r.2.mem ((c : Thread nD τ).loc main_v0) = kernelResult m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final m c (hr c)), (h c).2⟩) (run_blocks m ρ)

end Cert.FilterConv

end
-- ==== Proof.RefGather.lean ====
/-
  The reference's neighbour gather, read at one index.

  The reference indexes the projected features `y = x · W_in` (32 × 256 × 128) by `y[b, nbr[b, n, m]]`: it prints as a
  gather whose start-index vectors are `(b, w')`, `w'` the slot's index word after jnp's wrap of a negative word
  (`w + 256` where `w < 0`), over the collapsed axes 0 and 1 with a slice of the whole feature axis; the gather reads each
  start component signed and clamps it so that the slice fits. The batch component `b` is in range; for a word whose value
  is below 256 the wrap does not fire and the clamp into `[0, 255]` changes nothing. So entry `(b, n, m, f)` is
  `y[b, w, f]` with `w` the word's value.
-/
import proofs.«417244_j30623116820559_3_alg».proof.Proof.Gen.ReferenceIdeal.Read
import proofs.«417244_j30623116820559_3_alg».proof.Proof.Spec
import Idealize.ShloMosaic.Lib.ValueIdx
import Idealize.ShloMosaic.Lib.Pipeline.Value
import Idealize.ShloMosaic.Lib.StableHlo.Predicate

noncomputable section

namespace Cert.FilterConv

open Idealize.ShloMosaic Idealize.ShloMosaic.ValueIdx Cert.ReferenceIdeal Cert.ReferenceIdeal.Read

/-- A word below 2³¹ is not negative, so jnp's wrap of a negative word (`w + c` where `w < 0`) leaves it. -/
private theorem wrap_of_lt {w c : BitVec 32} (h : w.toNat < 2 ^ 31) :
    Scalar.select (IntOp.cmpi .slt w 0#32) (IntOp.addi w c) w = w := by
  have hne : ¬ IntOp.cmpi .slt w 0#32 = 1#1 := fun e =>
    Nat.not_lt_zero _ ((StableHlo.Predicate.slt_iff_toNat h (by decide)).1 e)
  exact if_neg hne

/-- A word below 2³¹ read signed is its value. -/
private theorem toInt_toNat_of_lt {w : BitVec 32} (h : w.toNat < 2 ^ 31) : w.toInt.toNat = w.toNat := by
  rw [StableHlo.Predicate.toInt_eq_toNat_of_lt h]
  exact Int.toNat_natCast _

/-- The gather's dimension numbers. -/
private abbrev gDims := gather_S32x256x128_S32x256x48x2_S32x256x48x128_3_01_n_n_01_3_11128

/-- The start-index array's index at which result index `(b, n, m, f)` reads component `c` of its start index: the
    result's three batch coordinates, then `c`. -/
private theorem gDims_siIdx (b : Fin 32) (n : Fin 256) (m : Fin 48) (f : Fin 128) (c : Fin gDims.startIndexMap.length) :
    gDims.siIdx (ix4 b n m f) c = ix4 b n m (⟨c.val, c.isLt⟩ : Fin 2) := by
  funext a; refine Fin.ext ?_
  match a with
  | ⟨0, _⟩ => rfl
  | ⟨1, _⟩ => rfl
  | ⟨2, _⟩ => rfl
  | ⟨3, _⟩ => rfl

/-- The word of a batch number is the batch number. -/
private theorem toNat_batchWord (b : Fin 32) : (BitVec.ofNat 32 b.val).toNat = b.val := by
  rw [BitVec.toNat_ofNat]; have := b.isLt; omega

/-- The start-index array on component 0: the batch number's word. -/
private theorem v30_batch (x2 : (⟨S32x256x48, .i32⟩ : BufTy).Contents (Elt Ideal)) (b : Fin 32) (n : Fin 256) (m : Fin 48) :
    val_main_v30 (F := Ideal) x2 (ix4 b n m (0 : Fin 2)) = BitVec.ofNat 32 b.val := by
  unfold val_main_v30
  refine (concatenate_pair_apply_left (t := S32x256x48x2) (s₁ := S32x256x48x1) (s₂ := S32x256x48x1) (3 : Fin 4) _ _ _
    (ix4 b n m (0 : Fin 2)) rfl (ix4 b n m (0 : Fin 1)) ?_).trans ?_
  · intro a
    match a with
    | ⟨0, _⟩ => rfl
    | ⟨1, _⟩ => rfl
    | ⟨2, _⟩ => rfl
    | ⟨3, _⟩ => rfl
  · rw [val_main_v28_apply, val_main_v27_apply, val_main_v21_apply, val_main_v18_apply, val_main_v20_apply,
      val_main_v16_apply, val_main_v15_apply, val_main_v17_apply, val_main_c_apply]
    exact wrap_of_lt (w := BitVec.ofNat 32 b.val) (by rw [toNat_batchWord]; have := b.isLt; omega)

/-- The start-index array on component 1: the slot's index word, where it is below 2³¹. -/
private theorem v30_word (x2 : (⟨S32x256x48, .i32⟩ : BufTy).Contents (Elt Ideal)) (b : Fin 32) (n : Fin 256) (m : Fin 48)
    (h : (x2 (ix3 b n m)).toNat < 2 ^ 31) :
    val_main_v30 (F := Ideal) x2 (ix4 b n m (1 : Fin 2)) = x2 (ix3 b n m) := by
  unfold val_main_v30
  refine (concatenate_pair_apply_right (t := S32x256x48x2) (s₁ := S32x256x48x1) (s₂ := S32x256x48x1) (3 : Fin 4) _ _ _
    (ix4 b n m (1 : Fin 2)) rfl rfl (ix4 b n m (0 : Fin 1)) ?_ rfl).trans ?_
  · intro a ha
    match a, ha with
    | ⟨0, _⟩, _ => rfl
    | ⟨1, _⟩, _ => rfl
    | ⟨2, _⟩, _ => rfl
    | ⟨3, _⟩, ha => exact absurd rfl ha
  · have e : idx_main_v29 (ix4 b n m (0 : Fin 1)) = ix3 b n m := by
      funext a
      match a with
      | ⟨0, _⟩ => rfl
      | ⟨1, _⟩ => rfl
      | ⟨2, _⟩ => rfl
    rw [val_main_v29_apply, val_main_v26_apply, val_main_v23_apply, val_main_v25_apply, val_main_v22_apply,
      val_main_c_1_apply, e]
    exact wrap_of_lt h

/-- No operand axis is a batching axis. -/
private theorem gDims_batchCoord (j : S32x256x48x128.Idx) (a : Fin 3) : gDims.batchCoord j a = 0 :=
  GatherDims.batchCoord_eq_zero _ _ _ List.not_mem_nil

/-- Operand axis 0 is collapsed: no offset on it. -/
private theorem gDims_offCoord_0 (j : S32x256x48x128.Idx) : gDims.offCoord j 0 = 0 :=
  GatherDims.offCoord_eq_zero _ _ _ (fun h => ((GatherDims.mem_sKept _ _).mp h).1 (by decide))

/-- Operand axis 1 is collapsed: no offset on it. -/
private theorem gDims_offCoord_1 (j : S32x256x48x128.Idx) : gDims.offCoord j 1 = 0 :=
  GatherDims.offCoord_eq_zero _ _ _ (fun h => ((GatherDims.mem_sKept _ _).mp h).1 (by decide))

/-- Operand axis 2 is the one kept axis: its offset is the result's coordinate on the one offset axis, the last. -/
private theorem gDims_offCoord_2 (b : Fin 32) (n : Fin 256) (m : Fin 48) (f : Fin 128) : gDims.offCoord (ix4 b n m f) 2 = f.val := by
  unfold GatherDims.offCoord
  rw [dif_pos (show (2 : Fin 3) ∈ gDims.sKept by decide)]
  rfl

/-- The slice's start on operand axis 0: component 0 of the start index, read signed and clamped into `[0, 31]`. -/
private theorem gDims_start_0 (idx : IVec S32x256x48x2 32) (b : Fin 32) (n : Fin 256) (m : Fin 48) (f : Fin 128) :
    gDims.start (ix4 b n m f) idx 0 = min (idx (ix4 b n m (0 : Fin 2))).toInt.toNat 31 := by
  unfold GatherDims.start
  rw [dif_pos (show (0 : Fin 3) ∈ gDims.startIndexMap by decide), gDims_siIdx]
  rfl

/-- The slice's start on operand axis 1: component 1 of the start index, read signed and clamped into `[0, 255]`. -/
private theorem gDims_start_1 (idx : IVec S32x256x48x2 32) (b : Fin 32) (n : Fin 256) (m : Fin 48) (f : Fin 128) :
    gDims.start (ix4 b n m f) idx 1 = min (idx (ix4 b n m (1 : Fin 2))).toInt.toNat 255 := by
  unfold GatherDims.start
  rw [dif_pos (show (1 : Fin 3) ∈ gDims.startIndexMap by decide), gDims_siIdx]
  rfl

/-- Operand axis 2 is not start-indexed: the slice starts at 0. -/
private theorem gDims_start_2 (idx : IVec S32x256x48x2 32) (j : S32x256x48x128.Idx) : gDims.start j idx 2 = 0 := by
  unfold GatherDims.start
  rw [dif_neg (show ¬ (2 : Fin 3) ∈ gDims.startIndexMap by decide)]

/-- The operand index the gather reads at `(b, n, m, f)`: batch `b`, the atom the slot's word names, feature `f`. -/
private theorem gDims_operandIdx (x2 : (⟨S32x256x48, .i32⟩ : BufTy).Contents (Elt Ideal)) (b : Fin 32) (n : Fin 256) (m : Fin 48)
    (f : Fin 128) (h : (x2 (ix3 b n m)).toNat < 256) :
    gDims.operandIdx (ix4 b n m f) (val_main_v30 (F := Ideal) x2) = ix3 b (atomOf (x2 (ix3 b n m))) f := by
  funext a; refine Fin.ext ?_
  match a with
  | ⟨0, _⟩ =>
    show gDims.start (ix4 b n m f) (val_main_v30 (F := Ideal) x2) 0 + gDims.batchCoord (ix4 b n m f) 0 + gDims.offCoord (ix4 b n m f) 0 = b.val
    rw [gDims_start_0, gDims_batchCoord, gDims_offCoord_0, Nat.add_zero, v30_batch,
      toInt_toNat_of_lt (by rw [toNat_batchWord]; have := b.isLt; omega), toNat_batchWord]
    exact Nat.min_eq_left (by have := b.isLt; omega)
  | ⟨1, _⟩ =>
    show gDims.start (ix4 b n m f) (val_main_v30 (F := Ideal) x2) 1 + gDims.batchCoord (ix4 b n m f) 1 + gDims.offCoord (ix4 b n m f) 1
      = (atomOf (x2 (ix3 b n m))).val
    rw [gDims_start_1, gDims_batchCoord, gDims_offCoord_1, Nat.add_zero, v30_word x2 b n m (by omega),
      toInt_toNat_of_lt (by omega), atomOf_val_of_lt h]
    exact Nat.min_eq_left (by omega)
  | ⟨2, _⟩ =>
    show gDims.start (ix4 b n m f) (val_main_v30 (F := Ideal) x2) 2 + gDims.batchCoord (ix4 b n m f) 2 + gDims.offCoord (ix4 b n m f) 2 = f.val
    rw [gDims_start_2, gDims_batchCoord, gDims_offCoord_2, Nat.zero_add]

/-- The gathered array at `(b, n, m, f)` is the projected features of batch `b` at the atom the slot's word names,
    feature `f`, when every index word is below 256. -/
theorem gather_at (x0 : (⟨S32x256x128, .f32⟩ : BufTy).Contents (Elt Ideal)) (x2 : (⟨S32x256x48, .i32⟩ : BufTy).Contents (Elt Ideal)) (x8 : (⟨S128x128, .f32⟩ : BufTy).Contents (Elt Ideal))
    (hx2 : ∀ j : S32x256x48.Idx, (x2 j).toNat < 256) (b : Fin 32) (n : Fin 256) (m : Fin 48) (f : Fin 128) :
    val_main_v31 (F := Ideal) x0 x2 x8 (ix4 b n m f)
      = val_main_v14 (F := Ideal) x0 x8 (ix3 b (atomOf (x2 (ix3 b n m))) f) := by
  unfold val_main_v31 Host.gather
  exact congrArg (val_main_v14 (F := Ideal) x0 x8) (gDims_operandIdx x2 b n m f (hx2 _))

end Cert.FilterConv

end
-- ==== Proof.RefValue.lean ====
/-
  The reference program's result, one operation at a time, is the specification's `result` of its thirteen arguments.

  At index `(b, n, c)` the last stage is a sum of a matrix product and a broadcast bias; each matrix product is a sum over
  its contracted axis, each broadcast reads its operand at the matching coordinates, the two inlined softplus calls are
  `max x 0 + log (1 + exp (−|x|))` (their NaN guard `x ≠ x` never holds on the extended reals, so the select takes the
  other branch), and the sum over the 48 neighbour slots is `0 + ∑ₘ`. The gather reads row
  `(b, idx)` of the projected features, `idx` the slot's index word after jnp's wrap of a negative word and the gather's
  clamp into `[0, 255]`; for a word whose value is below 256 neither changes it, so the row is the one the word names.
-/
import proofs.«417244_j30623116820559_3_alg».proof.Proof.Gen.ReferenceIdeal.Read
import proofs.«417244_j30623116820559_3_alg».proof.Proof.Spec
import proofs.«417244_j30623116820559_3_alg».proof.Proof.RefGather
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

namespace Cert.FilterConv

open Idealize.ShloMosaic Idealize.ShloMosaic.ValueIdx Cert.ReferenceIdeal Cert.ReferenceIdeal.Read

/-- One softplus call and the subtraction of the constant, at a scalar `y`: the guard `y - 0 ≠ y - 0` is false on the
    extended reals, so the select takes its last branch, and `y - 0 = y`. -/
theorem ssp_scalar (y : EReal) :
    FloatOps.subf (F := Ideal) (φ := .f32)
      (Scalar.select (FloatOps.cmpf (F := Ideal) (φ := .f32) .une (FloatOps.subf (F := Ideal) (φ := .f32) y (FloatOps.ofBits (F := Ideal) .f32 0x00000000#32)) (FloatOps.subf (F := Ideal) (φ := .f32) y (FloatOps.ofBits (F := Ideal) .f32 0x00000000#32)))
        (FloatOps.addf (F := Ideal) (φ := .f32) y (FloatOps.ofBits (F := Ideal) .f32 0x00000000#32))
        (FloatOps.addf (F := Ideal) (φ := .f32) (FloatOps.maximumf (F := Ideal) (φ := .f32) y (FloatOps.ofBits (F := Ideal) .f32 0x00000000#32))
          (FloatOps.hostUnary (F := Ideal) (φ := .f32) .log1p (FloatOps.hostUnary (F := Ideal) (φ := .f32) .exp (FloatOps.hostNegf (F := Ideal) (φ := .f32) (FloatOps.hostAbsf (F := Ideal) (φ := .f32) (FloatOps.subf (F := Ideal) (φ := .f32) y (FloatOps.ofBits (F := Ideal) .f32 0x00000000#32))))))))
      (FloatOps.ofBits (F := Ideal) .f32 0x3F317218#32) = ssp y := by
  have hc : ∀ a : EReal, FloatOps.cmpf (F := Ideal) (φ := .f32) .une a a = 0#1 := fun a => by
    show Ideal.cmp .une a a = 0#1
    simp [Ideal.cmp]
  have habs : ∀ a : EReal, FloatOps.absf (F := Ideal) (φ := .f32) a = max a (-a) := fun _ => rfl
  rw [hc, select_zero]
  simp only [Ideal.subf_def, Ideal.addf_def, Ideal.maximumf_def, Ideal.hostUnary_log1p_def, Ideal.hostUnary_exp_def,
    Ideal.hostNegf_def, Ideal.hostAbsf_def, Ideal.negf_def, habs, Ideal.ofBits_def, Ideal.ofBits_zero_f32, sub_zero]
  rfl

section Stages
variable (x0 : (⟨S32x256x128, .f32⟩ : BufTy).Contents (Elt Ideal)) (x1 : (⟨S32x256x48, .f32⟩ : BufTy).Contents (Elt Ideal))
  (x2 : (⟨S32x256x48, .i32⟩ : BufTy).Contents (Elt Ideal)) (x3 : (⟨S32x256x48x50, .f32⟩ : BufTy).Contents (Elt Ideal))
  (x4 : (⟨S50x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 x9 : (⟨S128x128, .f32⟩ : BufTy).Contents (Elt Ideal)) (x10 : (⟨S128, .f32⟩ : BufTy).Contents (Elt Ideal))
  (x11 : (⟨S128x128, .f32⟩ : BufTy).Contents (Elt Ideal)) (x12 : (⟨S128, .f32⟩ : BufTy).Contents (Elt Ideal))

/-- The first inlined softplus call followed by the subtraction of the constant is `ssp` of the call's argument. -/
theorem v6_ssp (i : S32x256x48x128.Idx) :
    val_main_v6 (F := Ideal) x3 x4 x5 i = ssp (val_main_v3 (F := Ideal) x3 x4 x5 i) := by
  rw [val_main_v6_apply, val_main_v4_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v0_apply, val_main_call0_v2_apply,
    val_main_call0_v5_apply, val_main_v5_apply, val_main_cst_apply]
  simp only [val_main_call0_cst_apply]
  exact ssp_scalar _

/-- The first layer's pre-activation at a slot and a hidden feature. -/
theorem v3_at (b : Fin 32) (n : Fin 256) (m : Fin 48) (g : Fin 128) :
    val_main_v3 (F := Ideal) x3 x4 x5 (ix4 b n m g) = (∑ k : Fin 50, x3 (ix4 b n m k) * x4 (ix2 k g)) + x5 (ix1 g) := by
  have e1 : ∀ k, lidx_main_v0 (ix4 b n m g) k = ix4 b n m k := fun k => by
    funext a; match a with | ⟨0, _⟩ => rfl | ⟨1, _⟩ => rfl | ⟨2, _⟩ => rfl | ⟨3, _⟩ => rfl
  have e2 : ∀ k, ridx_main_v0 (ix4 b n m g) k = ix2 k g := fun k => by
    funext a; match a with | ⟨0, _⟩ => rfl | ⟨1, _⟩ => rfl
  have e3 : idx_main_v1 (idx_main_v2 (ix4 b n m g)) = ix1 g := by
    funext a; match a with | ⟨0, _⟩ => rfl
  rw [val_main_v3_apply, val_main_v0_apply, val_main_v2_apply, val_main_v1_apply]
  simp only [e1, e2, e3, Ideal.addf_def]

end Stages

section Stages2
variable (x0 : (⟨S32x256x128, .f32⟩ : BufTy).Contents (Elt Ideal)) (x1 : (⟨S32x256x48, .f32⟩ : BufTy).Contents (Elt Ideal))
  (x2 : (⟨S32x256x48, .i32⟩ : BufTy).Contents (Elt Ideal)) (x3 : (⟨S32x256x48x50, .f32⟩ : BufTy).Contents (Elt Ideal))
  (x4 : (⟨S50x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 x9 : (⟨S128x128, .f32⟩ : BufTy).Contents (Elt Ideal)) (x10 : (⟨S128, .f32⟩ : BufTy).Contents (Elt Ideal))
  (x11 : (⟨S128x128, .f32⟩ : BufTy).Contents (Elt Ideal)) (x12 : (⟨S128, .f32⟩ : BufTy).Contents (Elt Ideal))

/-- The activated first layer at a slot is the specification's hidden row of the slot's radial basis values. -/
theorem v6_at (b : Fin 32) (n : Fin 256) (m : Fin 48) (g : Fin 128) :
    val_main_v6 (F := Ideal) x3 x4 x5 (ix4 b n m g)
      = hiddenRow (fun k g => x4 (ix2 k g)) (fun g => x5 (ix1 g)) (fun k => x3 (ix4 b n m k)) g := by
  rw [v6_ssp, v3_at]
  rfl

/-- The masked filter at a slot is the specification's filter row. -/
theorem v13_at (b : Fin 32) (n : Fin 256) (m : Fin 48) (f : Fin 128) :
    val_main_v13 (F := Ideal) x1 x3 x4 x5 x6 x7 (ix4 b n m f)
      = filterRow (fun k g => x4 (ix2 k g)) (fun g => x5 (ix1 g)) (fun g f => x6 (ix2 g f)) (fun f => x7 (ix1 f))
          (fun k => x3 (ix4 b n m k)) (x1 (ix3 b n m)) f := by
  have e1 : ∀ k, lidx_main_v7 (ix4 b n m f) k = ix4 b n m k := fun k => by
    funext a; match a with | ⟨0, _⟩ => rfl | ⟨1, _⟩ => rfl | ⟨2, _⟩ => rfl | ⟨3, _⟩ => rfl
  have e2 : ∀ k, ridx_main_v7 (ix4 b n m f) k = ix2 k f := fun k => by
    funext a; match a with | ⟨0, _⟩ => rfl | ⟨1, _⟩ => rfl
  have e3 : idx_main_v8 (idx_main_v9 (ix4 b n m f)) = ix1 f := by
    funext a; match a with | ⟨0, _⟩ => rfl
  have e4 : idx_main_v11 (idx_main_v12 (ix4 b n m f)) = ix3 b n m := by
    funext a; match a with | ⟨0, _⟩ => rfl | ⟨1, _⟩ => rfl | ⟨2, _⟩ => rfl
  rw [val_main_v13_apply, val_main_v10_apply, val_main_v7_apply, val_main_v9_apply, val_main_v8_apply,
    val_main_v12_apply, val_main_v11_apply]
  simp only [e1, e2, e3, e4, v6_at, Ideal.addf_def, Ideal.mulf_def]
  rfl

/-- The projected features at an atom are the specification's projected row of the atom's features. -/
theorem v14_at (b : Fin 32) (n : Fin 256) (f : Fin 128) :
    val_main_v14 (F := Ideal) x0 x8 (ix3 b n f) = projRow (fun a f => x8 (ix2 a f)) (fun a => x0 (ix3 b n a)) f := by
  have e1 : ∀ k, lidx_main_v14 (ix3 b n f) k = ix3 b n k := fun k => by
    funext a; match a with | ⟨0, _⟩ => rfl | ⟨1, _⟩ => rfl | ⟨2, _⟩ => rfl
  have e2 : ∀ k, ridx_main_v14 (ix3 b n f) k = ix2 k f := fun k => by
    funext a; match a with | ⟨0, _⟩ => rfl | ⟨1, _⟩ => rfl
  rw [val_main_v14_apply]
  simp only [e1, e2]
  rfl

end Stages2

section Stages3
variable (x0 : (⟨S32x256x128, .f32⟩ : BufTy).Contents (Elt Ideal)) (x1 : (⟨S32x256x48, .f32⟩ : BufTy).Contents (Elt Ideal))
  (x2 : (⟨S32x256x48, .i32⟩ : BufTy).Contents (Elt Ideal)) (x3 : (⟨S32x256x48x50, .f32⟩ : BufTy).Contents (Elt Ideal))
  (x4 : (⟨S50x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 x9 : (⟨S128x128, .f32⟩ : BufTy).Contents (Elt Ideal)) (x10 : (⟨S128, .f32⟩ : BufTy).Contents (Elt Ideal))
  (x11 : (⟨S128x128, .f32⟩ : BufTy).Contents (Elt Ideal)) (x12 : (⟨S128, .f32⟩ : BufTy).Contents (Elt Ideal))

/-- The sum over the neighbour slots at an atom is the specification's aggregate row of the batch's slabs: the initial
    value is zero, each slot's term is the gathered projected row times the slot's filter row. -/
theorem v33_at (hx2 : ∀ j : S32x256x48.Idx, (x2 j).toNat < 256) (b : Fin 32) (n : Fin 256) (f : Fin 128) :
    val_main_v33 (F := Ideal) x0 x1 x2 x3 x4 x5 x6 x7 x8 (ix3 b n f)
      = aggRow (fun k g => x4 (ix2 k g)) (fun g => x5 (ix1 g)) (fun g f => x6 (ix2 g f)) (fun f => x7 (ix1 f))
          (fun a f => x8 (ix2 a f)) (fun n a => x0 (ix3 b n a)) (fun m => x1 (ix3 b n m)) (fun m => x2 (ix3 b n m))
          (fun m k => x3 (ix4 b n m k)) f := by
  have e1 : ∀ m, idx_main_v33 (ix3 b n f) m = ix4 b n m f := fun m => by
    funext a; match a with | ⟨0, _⟩ => rfl | ⟨1, _⟩ => rfl | ⟨2, _⟩ => rfl | ⟨3, _⟩ => rfl
  rw [val_main_v33_apply, val_main_cst_3_apply, Ideal.ofBits_def, Ideal.ofBits_zero_f32, zero_add]
  simp only [e1, val_main_v32_apply, gather_at x0 x2 x8 hx2, v14_at, v13_at, Ideal.mulf_def]
  rfl

/-- The output layer's pre-activation at an atom. -/
theorem v37_at (b : Fin 32) (n : Fin 256) (a : Fin 128) :
    val_main_v37 (F := Ideal) x0 x1 x2 x3 x4 x5 x6 x7 x8 x9 x10 (ix3 b n a)
      = (∑ f : Fin 128, val_main_v33 (F := Ideal) x0 x1 x2 x3 x4 x5 x6 x7 x8 (ix3 b n f) * x9 (ix2 f a)) + x10 (ix1 a) := by
  have e1 : ∀ k, lidx_main_v34 (ix3 b n a) k = ix3 b n k := fun k => by
    funext d; match d with | ⟨0, _⟩ => rfl | ⟨1, _⟩ => rfl | ⟨2, _⟩ => rfl
  have e2 : ∀ k, ridx_main_v34 (ix3 b n a) k = ix2 k a := fun k => by
    funext d; match d with | ⟨0, _⟩ => rfl | ⟨1, _⟩ => rfl
  have e3 : idx_main_v35 (idx_main_v36 (ix3 b n a)) = ix1 a := by
    funext d; match d with | ⟨0, _⟩ => rfl
  rw [val_main_v37_apply, val_main_v34_apply, val_main_v36_apply, val_main_v35_apply]
  simp only [e1, e2, e3, Ideal.addf_def]

/-- The second inlined softplus call followed by the subtraction of the constant is `ssp` of the call's argument. -/
theorem v40_ssp (i : S32x256x128.Idx) :
    val_main_v40 (F := Ideal) x0 x1 x2 x3 x4 x5 x6 x7 x8 x9 x10 i
      = ssp (val_main_v37 (F := Ideal) x0 x1 x2 x3 x4 x5 x6 x7 x8 x9 x10 i) := by
  rw [val_main_v40_apply, val_main_v38_apply, val_main_call1_v4_apply, val_main_call1_v6_apply, val_main_call1_v11_apply,
    val_main_call1_v1_apply, val_main_call1_v10_apply, val_main_call1_v9_apply, val_main_call1_v8_apply,
    val_main_call1_v7_apply, val_main_call1_v3_apply, val_main_call1_v0_apply, val_main_call1_v2_apply,
    val_main_call1_v5_apply, val_main_v39_apply, val_main_cst_4_apply]
  simp only [val_main_call1_cst_apply]
  exact ssp_scalar _

/-- The last stage at an atom and an output feature, over the activated output layer. -/
theorem v44_at (b : Fin 32) (n : Fin 256) (c : Fin 128) :
    val_main_v44 (F := Ideal) x0 x1 x2 x3 x4 x5 x6 x7 x8 x9 x10 x11 x12 (ix3 b n c)
      = (∑ a : Fin 128, val_main_v40 (F := Ideal) x0 x1 x2 x3 x4 x5 x6 x7 x8 x9 x10 (ix3 b n a) * x11 (ix2 a c))
          + x12 (ix1 c) := by
  have e1 : ∀ k, lidx_main_v41 (ix3 b n c) k = ix3 b n k := fun k => by
    funext d; match d with | ⟨0, _⟩ => rfl | ⟨1, _⟩ => rfl | ⟨2, _⟩ => rfl
  have e2 : ∀ k, ridx_main_v41 (ix3 b n c) k = ix2 k c := fun k => by
    funext d; match d with | ⟨0, _⟩ => rfl | ⟨1, _⟩ => rfl
  have e3 : idx_main_v42 (idx_main_v43 (ix3 b n c)) = ix1 c := by
    funext d; match d with | ⟨0, _⟩ => rfl
  rw [val_main_v44_apply, val_main_v41_apply, val_main_v43_apply, val_main_v42_apply]
  simp only [e1, e2, e3, Ideal.addf_def]

end Stages3

/-- The reference's result term is the specification's result array, when every neighbour-index word is below 256. -/
theorem reference_result (x0 : (⟨S32x256x128, .f32⟩ : BufTy).Contents (Elt Ideal)) (x1 : (⟨S32x256x48, .f32⟩ : BufTy).Contents (Elt Ideal)) (x2 : (⟨S32x256x48, .i32⟩ : BufTy).Contents (Elt Ideal)) (x3 : (⟨S32x256x48x50, .f32⟩ : BufTy).Contents (Elt Ideal)) (x4 : (⟨S50x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal))
    (hx2 : ∀ j : S32x256x48.Idx, (x2 j).toNat < 256) :
    val_main_v44 (F := Ideal) x0 x1 x2 x3 x4 x5 x6 x7 x8 x9 x10 x11 x12 = result x0 x1 x2 x3 x4 x5 x6 x7 x8 x9 x10 x11 x12 := by
  funext i
  obtain ⟨b, n, c, rfl⟩ : ∃ (b : Fin 32) (n : Fin 256) (c : Fin 128), i = ix3 b n c :=
    ⟨i 0, i 1, i 2, eq_ix3 (n0 := 32) (n1 := 256) (n2 := 128) i⟩
  rw [v44_at]
  simp only [v40_ssp, v37_at, v33_at x0 x1 x2 x3 x4 x5 x6 x7 x8 hx2]
  -- both sides are now the output row of the aggregate row of batch `b`'s slabs at atom `n`, feature `c`
  rfl

end Cert.FilterConv

end
-- ==== Proof.PreRange.lean ====
/-
  What the precondition says of the neighbour-index array: every entry, read as a signed word, lies in [0, 256); so its
  value as a natural number is below 256.

  The printed precondition is a conjunction (a chain of one-bit `and`s) whose last conjunct is the reduction by `and`, over
  the whole index array, of `(0 ≤ w) ∧ (w < 256)` on each word `w`, both comparisons signed. The conjunction being 1
  makes the last conjunct 1; a reduction by `and` that is 1 met a 1 at every index; and a word that is signed-at-least 0
  and signed-below 256 has a natural-number value below 256.
-/
import proofs.«417244_j30623116820559_3_alg».proof.Pre_finite_inputs
import Idealize.ShloMosaic.Lib.ReduceAll
import Idealize.ShloMosaic.Lib.ValueIdx
import Idealize.ShloMosaic.Lib.StableHlo.Predicate

noncomputable section

namespace Cert.FilterConv

open Idealize.ShloMosaic Cert.Pre_finite_inputs

/-- A 32-bit word that is at least 0 and below 256 as a signed number is below 256 as a natural number: were its
    top bit set, its signed value would be negative. -/
private theorem toNat_lt_of_signed_range {w : BitVec 32} (h0 : (0#32 : BitVec 32).toInt ≤ w.toInt)
    (h1 : w.toInt < (256#32 : BitVec 32).toInt) : w.toNat < 256 := by
  rw [show (0#32 : BitVec 32).toInt = 0 from by decide] at h0
  rw [show (256#32 : BitVec 32).toInt = 256 from by decide] at h1
  rw [BitVec.toInt_eq_toNat_cond] at h0 h1
  split at h0 <;> omega

/-- Under the precondition every neighbour-index word is below 256 as a natural number. -/
theorem nbr_lt_of_pre {F : FTy → Type} [FloatOps F] [Cert.Pre_finite_inputs.Facts]
    (a0 : FVec F S32x256x128 .f32) (a1 : FVec F S32x256x48 .f32) (a2 : IVec S32x256x48 32) (a3 : FVec F S32x256x48x50 .f32)
    (a4 : FVec F S50x128 .f32) (a5 : FVec F S128 .f32) (a6 : FVec F S128x128 .f32) (a7 : FVec F S128 .f32)
    (a8 : FVec F S128x128 .f32) (a9 : FVec F S128x128 .f32) (a10 : FVec F S128 .f32) (a11 : FVec F S128x128 .f32)
    (a12 : FVec F S128 .f32)
    (h : Cert.Pre_finite_inputs.fn (F := F) a0 a1 a2 a3 a4 a5 a6 a7 a8 a9 a10 a11 a12 = (fun _ => 1#1))
    (j : S32x256x48.Idx) : (a2 j).toNat < 256 := by
  -- the shape with no axes has one index
  haveI : Subsingleton S_.Idx := ⟨fun a b => funext fun d => d.elim0⟩
  -- the conjunction, read at its one index
  have h0 := congrFun h ValueIdx.ix0
  dsimp only [fn, fn_part1, fn_part2, fn_part3] at h0
  -- its last conjunct: the reduction by `and` over the index array
  obtain ⟨-, h1⟩ := IntOp.andi_eq_one.1 h0
  -- a reduction by `and` over every axis that is 1 met a 1 at `j`
  have h2 := Host.reduce_andi_all _ _ _ _ _ h1 j
  -- the element at `j` is the `and` of the two signed comparisons of the word with the constants 0 and 256
  obtain ⟨h3, h4⟩ := IntOp.andi_eq_one.1 h2
  have h3' : IntOp.cmpi .sge (a2 j) 0#32 = 1#1 := h3
  have h4' : IntOp.cmpi .slt (a2 j) 256#32 = 1#1 := h4
  exact toNat_lt_of_signed_range (IntOp.cmpi_sge.1 h3') (IntOp.cmpi_slt.1 h4')

end Cert.FilterConv

end
-- ==== Proof.lean ====
/-
  The certificate of the continuous-filter convolution block: the Pallas kernel against its jnp reference over the extended reals.

  Both programs compute, for batch `b`, atom `n` and feature `c`, the specification's `out` of batch `b`'s slabs (Proof/Spec.lean):
  two filter layers with a shifted softplus between them on each neighbour slot's radial basis values, masked; the
  neighbour's atom features projected into filter space; their filter-weighted sum over the 48 slots; an activated output
  layer and a final dense layer. The kernel takes one batch per grid point and the atoms in eight chunks of 32 through a
  scratch aggregate, gathering neighbours by a product with a 0/1 matrix; the reference indexes the projected features.
  The two agree where every neighbour index lies in [0, 256): there the 0/1 product is the indexed row (`0 · y = 0`,
  `1 · y = y` on the extended reals) and the reference's wrap and clamp of an index change nothing. The precondition states
  that range, and it is the only part of the precondition the proof uses: no law here needs finiteness (sums are only
  regrouped, never distributed over).

  `algebraic`: the kernel's run ends with its result array at the specification's `result` of the arguments
  (Proof/KernelValue.lean: what a point writes back, block by block, and the cover); the reference's run ends with its
  result at the same function (Proof/RefValue.lean, one operation at a time); the arguments agree. The frames are the
  programs' runs with the results dropped. `preserves` has no conjunct: the idealization rewrote no operation.
-/
import proofs.«417244_j30623116820559_3_alg».proof.Defs
import proofs.«417244_j30623116820559_3_alg».proof.Proof.FrameBits
import proofs.«417244_j30623116820559_3_alg».proof.Proof.KernelValue
import proofs.«417244_j30623116820559_3_alg».proof.Proof.RefValue
import proofs.«417244_j30623116820559_3_alg».proof.Proof.PreRange
import proofs.«417244_j30623116820559_3_alg».proof.Proof.Gen.Kernel
import proofs.«417244_j30623116820559_3_alg».proof.Proof.Gen.KernelIdeal
import proofs.«417244_j30623116820559_3_alg».proof.Proof.Gen.ReferenceIdeal
import proofs.«417244_j30623116820559_3_alg».proof.Proof.Gen.Pre_finite_inputs
import proofs.«417244_j30623116820559_3_alg».proof.Proof.Gen.ReferenceIdeal.Run
import proofs.«417244_j30623116820559_3_alg».proof.Proof.Gen.ReferenceIdeal.Read
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.GenP.frame m ρ

/-- The idealized kernel runs and leaves its arguments unchanged. -/
theorem frame_ki : Cert.frame_KernelIdeal := fun m ρ _ => Cert.KernelIdeal.GenP.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals both programs end with the specification's `result` of the arguments, which agree. -/
theorem algebraic : Cert.algebraic_KernelIdeal_ReferenceIdeal := by
  intro m ρ m' ρ' hpre hagree
  have hr : ∀ (c : Dev Cert.KernelIdeal.nD) (j : Cert.KernelIdeal.S32x256x48.Idx),
      (m ((c.tc : Thread Cert.KernelIdeal.nD Cert.KernelIdeal.τ).loc Cert.KernelIdeal.main_arg2) j).toNat < 256 :=
    fun c j => Cert.FilterConv.nbr_lt_of_pre _ _ _ _ _ _ _ _ _ _ _ _ _ (hpre c) j
  refine ⟨fun c => Cert.FilterConv.kernelResult m c, Cert.FilterConv.kernel_run m ρ hr, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12⟩ := hagree c
  rw [Cert.ReferenceIdeal.Read.val_main_v44_eq,
    Cert.FilterConv.reference_result _ _ _ _ _ _ _ _ _ _ _ _ _ (fun j => by rw [a2]; exact hr c j)]
  rw [a0, a1, a2, a3, a4, a5, a6, a7, a8, a9, a10, a11, a12]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
